-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x180 : Shape := ⟨2, ![50000, 180]⟩
abbrev S180x128 : Shape := ⟨2, ![180, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S2x800000 : Shape := ⟨2, ![2, 800000]⟩
abbrev S_ : Shape := ⟨0, ![]⟩

class Facts : Prop where
  bcast_S_S50000x180 : S_.BroadcastsInDim S50000x180 (![] : Fin 0 → Fin S50000x180.rank)
  reducesTo_S50000x180_S_d0_1 : S50000x180.ReducesTo [0, 1] S_
  h_S_ : 0 < S_.numel
  bcast_S_S180x128 : S_.BroadcastsInDim S180x128 (![] : Fin 0 → Fin S180x128.rank)
  reducesTo_S180x128_S_d0_1 : S180x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128 .f32) (main_arg5 : FVec F S128x64 .f32) (main_arg6 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x180 .f32) (main_arg1 : FVec F S180x128 .f32) (main_arg2 : FVec F S128 .f32) (main_arg3 : FVec F S128x128 .f32) (main_arg4 : FVec F S128 .f32) (main_arg5 : FVec F S128x64 .f32) (main_arg6 : FVec F S64 .f32) (main_arg7 : IVec S2x800000 32) : IVec S_ 1 :=
  let main_v0 : FVec F S50000x180 .f32 := Host.absf main_arg0
  let main_cst : FVec F S_ .f32 := constant S_ .f32 0x7F800000#32
  let main_v1 : FVec F S50000x180 .f32 := broadcastInDim S50000x180 ![] bcast_S_S50000x180 main_cst
  let main_v2 : IVec S50000x180 1 := cmpf .olt main_v0 main_v1
  let main_c : IVec S_ 1 := constantI S_ 1 1#1
  let main_v3 : IVec S_ 1 := (fun x v => Host.reduce IntOp.andi x v reducesTo_S50000x180_S_d0_1 h_S_) main_v2 main_c
  let main_v4 : FVec F S180x128 .f32 := Host.absf main_arg1
  let main_cst_0 : FVec F S_ .f32 := constant S_ .f32 0x7F800000#32
  let main_v5 : FVec F S180x128 .f32 := broadcastInDim S180x128 ![] bcast_S_S180x128 main_cst_0
  let main_v6 : IVec S180x128 1 := cmpf .olt main_v4 main_v5
  let main_c_1 : IVec S_ 1 := constantI S_ 1 1#1
  let main_v7 : IVec S_ 1 := (fun x v => Host.reduce IntOp.andi x v reducesTo_S180x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S50000x180 : Shape := ⟨2, ![50000, 180]⟩
abbrev S180x128 : Shape := ⟨2, ![180, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S2x800000 : Shape := ⟨2, ![2, 800000]⟩
abbrev S1x800000 : Shape := ⟨2, ![1, 800000]⟩
abbrev S800000 : Shape := ⟨1, ![800000]⟩
abbrev S1x128 : Shape := ⟨2, ![1, 128]⟩
abbrev S50000x128 : Shape := ⟨2, ![50000, 128]⟩
abbrev S5000x180 : Shape := ⟨2, ![5000, 180]⟩
abbrev S5000x128 : Shape := ⟨2, ![5000, 128]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x64 : Shape := ⟨2, ![1, 64]⟩
abbrev S50000x64 : Shape := ⟨2, ![50000, 64]⟩
abbrev S5000x64 : Shape := ⟨2, ![5000, 64]⟩
abbrev S850000x64 : Shape := ⟨2, ![850000, 64]⟩

abbrev nBuf : Space → Nat
  | .hbm => 136
  | .vmem => 28
  | .smem => 0
  | _ => 0

abbrev hbmTy0_0 (i : Nat) : BufTy := match i % 128 with
  | 0 => ⟨S50000x180, .f32⟩
  | 1 => ⟨S180x128, .f32⟩
  | 2 => ⟨S128, .f32⟩
  | 3 => ⟨S128x128, .f32⟩
  | 4 => ⟨S128, .f32⟩
  | 5 => ⟨S128x64, .f32⟩
  | 6 => ⟨S64, .f32⟩
  | 7 => ⟨S2x800000, .i32⟩
  | 8 => ⟨S1x800000, .i32⟩
  | 9 => ⟨S800000, .i32⟩
  | 10 => ⟨S1x800000, .i32⟩
  | 11 => ⟨S800000, .i32⟩
  | 12 => ⟨S1x128, .f32⟩
  | 13 => ⟨S50000x128, .f32⟩
  | 14 => ⟨S50000, .i32⟩
  | 15 => ⟨S850000, .i32⟩
  | 16 => ⟨S850000, .i32⟩
  | 17 => ⟨S_, .f32⟩
  | 18 => ⟨S128, .f32⟩
  | 19 => ⟨S1x128, .f32⟩
  | 20 => ⟨S50000x128, .f32⟩
  | 21 => ⟨S_, .f32⟩
  | 22 => ⟨S850000, .f32⟩
  | 23 => ⟨S_, .f32⟩
  | 24 => ⟨S50000, .f32⟩
  | 25 => ⟨S850000x1, .i32⟩
  | 26 => ⟨S50000, .f32⟩
  | 27 => ⟨S_, .f32⟩
  | 28 => ⟨S50000, .f32⟩
  | 29 => ⟨S50000, .i1⟩
  | 30 => ⟨S_, .f32⟩
  | 31 => ⟨S50000, .f32⟩
  | 32 => ⟨S50000, .f32⟩
  | 33 => ⟨S50000, .f32⟩
  | 34 => ⟨S_, .f32⟩
  | 35 => ⟨S_, .f32⟩
  | 36 => ⟨S50000, .f32⟩
  | 37 => ⟨S50000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000, .f32⟩
  | 56 => ⟨S850000, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000x128, .f32⟩
  | 66 => ⟨S850000x1, .f32⟩
  | 67 => ⟨S850000x128, .f32⟩
  | 68 => ⟨S850000x128, .f32⟩
  | 69 => ⟨S_, .f32⟩
  | 70 => ⟨S50000x128, .f32⟩
  | 71 => ⟨S850000x1, .i32⟩
  | 72 => ⟨S50000x128, .f32⟩
  | 73 => ⟨S1x128, .f32⟩
  | 74 => ⟨S50000x128, .f32⟩
  | 75 => ⟨S50000, .i32⟩
  | 76 => ⟨S850000, .i32⟩
  | 77 => ⟨S850000, .i32⟩
  | 78 => ⟨S_, .f32⟩
  | 79 => ⟨S64, .f32⟩
  | 80 => ⟨S1x64, .f32⟩
  | 81 => ⟨S50000x64, .f32⟩
  | 82 => ⟨S_, .f32⟩
  | 83 => ⟨S850000, .f32⟩
  | 84 => ⟨S_, .f32⟩
  | 85 => ⟨S50000, .f32⟩
  | 86 => ⟨S850000x1, .i32⟩
  | 87 => ⟨S50000, .f32⟩
  | 88 => ⟨S_, .f32⟩
  | 89 => ⟨S50000, .f32⟩
  | 90 => ⟨S50000, .i1⟩
  | 91 => ⟨S_, .f32⟩
  | 92 => ⟨S50000, .f32⟩
  | 93 => ⟨S50000, .f32⟩
  | 94 => ⟨S50000, .f32⟩
  | 95 => ⟨S_, .f32⟩
  | 96 => ⟨S_, .f32⟩
  | 97 => ⟨S50000, .f32⟩
  | 98 => ⟨S50000, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S850000, .f32⟩
  | 117 => ⟨S850000, .f32⟩
  | 118 => ⟨S_, .i32⟩
  | 119 => ⟨S850000, .i32⟩
  | 120 => ⟨S850000, .i1⟩
  | 121 => ⟨S_, .i32⟩
  | 122 => ⟨S850000, .i32⟩
  | 123 => ⟨S850000, .i32⟩
  | 124 => ⟨S850000, .i32⟩
  | 125 => ⟨S850000x1, .i32⟩
  | 126 => ⟨S850000x64, .f32⟩
  | 127 => ⟨S850000x1, .f32⟩
  | _ => ⟨S50000x180, .f32⟩

abbrev hbmTy0_1 (i : Nat) : BufTy := match i % 128 with
  | 0 => ⟨S850000x64, .f32⟩
  | 1 => ⟨S850000x64, .f32⟩
  | 2 => ⟨S_, .f32⟩
  | 3 => ⟨S50000x64, .f32⟩
  | 4 => ⟨S850000x1, .i32⟩
  | 5 => ⟨S50000x64, .f32⟩
  | 6 => ⟨S1x64, .f32⟩
  | 7 => ⟨S50000x64, .f32⟩
  | _ => ⟨S50000x180, .f32⟩

abbrev hbmTy (i : Nat) : BufTy := match i / 128 with
  | 0 => hbmTy0_0 i
  | 1 => hbmTy0_1 i
  | _ => ⟨S50000x180, .f32⟩

abbrev bufTy : (tb : Table) → Fin (tcTables nBuf tb) → BufTy
  | .hbm, ⟨i, _⟩ => hbmTy i
  | .local _ .vmem, ⟨0, _⟩ => ⟨S5000x180, .f32⟩
  | .local _ .vmem, ⟨1, _⟩ => ⟨S5000x180, .f32⟩
  | .local _ .vmem, ⟨2, _⟩ => ⟨S180x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x64, .f32⟩
  | .local _ .vmem, ⟨20, _⟩ => ⟨S1x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S50000x180, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_v21 : Ref sig .tc := ⟨.hbm, 37, rfl⟩
abbrev main_c : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_c_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_c_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_14 : Ref sig .tc := ⟨.hbm, 88, rfl⟩
abbrev main_v62 : Ref sig .tc := ⟨.hbm, 89, rfl⟩
abbrev main_v63 : Ref sig .tc := ⟨.hbm, 90, rfl⟩
abbrev main_cst_15 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_16 : Ref sig .tc := ⟨.hbm, 95, rfl⟩
abbrev main_call1_v0 : Ref sig .tc := ⟨.hbm, 96, rfl⟩
abbrev main_call1_v1 : Ref sig .tc := ⟨.hbm, 97, rfl⟩
abbrev main_v67 : Ref sig .tc := ⟨.hbm, 98, rfl⟩
abbrev main_c_17 : Ref sig .tc := ⟨.hbm, 99, rfl⟩
abbrev main_v68 : Ref sig .tc := ⟨.hbm, 100, rfl⟩
abbrev main_v69 : Ref sig .tc := ⟨.hbm, 101, rfl⟩
abbrev main_c_18 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_19 : Ref sig .tc := ⟨.hbm, 108, rfl⟩
abbrev main_v75 : Ref sig .tc := ⟨.hbm, 109, rfl⟩
abbrev main_v76 : Ref sig .tc := ⟨.hbm, 110, rfl⟩
abbrev main_c_20 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_c_21 : Ref sig .tc := ⟨.hbm, 118, rfl⟩
abbrev main_v83 : Ref sig .tc := ⟨.hbm, 119, rfl⟩
abbrev main_v84 : Ref sig .tc := ⟨.hbm, 120, rfl⟩
abbrev main_c_22 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_23 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x180 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S180x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S128_S1x128 : S128.ShapeCasts S1x128
  inb_S5000x180_S5000x180_0_0 : ∀ a, (![0, 0] : Fin 2 → Nat) a + S5000x180.size a ≤ S5000x180.size a
  h_S5000x180 : 0 < S5000x180.numel
  bitsLt_bf16_f32 : FTy.bits .bf16 < FTy.bits .f32
  inb_S180x128_S180x128_0_0 : ∀ a, (![0, 0] : Fin 2 → Nat) a + S180x128.size a ≤ S180x128.size a
  h_S180x128 : 0 < S180x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  concatenates_S800000_S50000_S850000_d0 : Shape.Concatenates [S800000, S50000] S850000 0
  bcast_S_S128 : S_.BroadcastsInDim S128 (![] : Fin 0 → Fin S128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S_S64 : S_.BroadcastsInDim S64 (![] : Fin 0 → Fin S64.rank)
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S5000x64_S5000x64 : S5000x64.ShapeCasts S5000x64
  dot_S5000x180_S180x128_S5000x128_1_0_0_1_n_n_wf : DotDims.WF S5000x180 S180x128 S5000x128 [1] [0] [0] [1] [] []
  dot_S5000x128_S128x128_S5000x128_1_0_0_1_n_n_wf : DotDims.WF S5000x128 S128x128 S5000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x180.size a ≤ S50000x180.size a
  hwx0_0 : ∀ i : grid0.Coords, EltTy.bits .f32 = 32 ∨ (Rect.block (s := S50000x180) S5000x180.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S180x128.size a ≤ S180x128.size a
  hwx0_1 : ∀ i : grid0.Coords, EltTy.bits .f32 = 32 ∨ (Rect.block (s := S180x128) S180x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)

variable [Facts₀]

def dot_S5000x180_S180x128_S5000x128_1_0_0_1_n_n : DotDims S5000x180 S180x128 S5000x128 where
  lhsContracting := [1]
  rhsContracting := [0]
  lhsNonContracting := [0]
  rhsNonContracting := [1]
  lhsBatch := []
  rhsBatch := []
  wf := dot_S5000x180_S180x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x180.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S180x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v51) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v95) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v96) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v97) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S50000x180 : Shape := ⟨2, ![50000, 180]⟩
abbrev S180x128 : Shape := ⟨2, ![180, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S2x800000 : Shape := ⟨2, ![2, 800000]⟩
abbrev S1x800000 : Shape := ⟨2, ![1, 800000]⟩
abbrev S800000 : Shape := ⟨1, ![800000]⟩
abbrev S50000x128 : Shape := ⟨2, ![50000, 128]⟩
abbrev S1x128 : Shape := ⟨2, ![1, 128]⟩
abbrev S_ : Shape := ⟨0, ![]⟩
abbrev S50000 : Shape := ⟨1, ![50000]⟩
abbrev S850000 : Shape := ⟨1, ![850000]⟩
abbrev S850000x1 : Shape := ⟨2, ![850000, 1]⟩
abbrev S850000x128 : Shape := ⟨2, ![850000, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 140
  | .vmem => 0
  | .smem => 0
  | _ => 0

abbrev hbmTy0_0 (i : Nat) : BufTy := match i % 128 with
  | 0 => ⟨S50000x180, .f32⟩
  | 1 => ⟨S180x128, .f32⟩
  | 2 => ⟨S128, .f32⟩
  | 3 => ⟨S128x128, .f32⟩
  | 4 => ⟨S128, .f32⟩
  | 5 => ⟨S128x64, .f32⟩
  | 6 => ⟨S64, .f32⟩
  | 7 => ⟨S2x800000, .i32⟩
  | 8 => ⟨S1x800000, .i32⟩
  | 9 => ⟨S800000, .i32⟩
  | 10 => ⟨S1x800000, .i32⟩
  | 11 => ⟨S800000, .i32⟩
  | 12 => ⟨S50000x128, .f32⟩
  | 13 => ⟨S1x128, .f32⟩
  | 14 => ⟨S50000x128, .f32⟩
  | 15 => ⟨S50000x128, .f32⟩
  | 16 => ⟨S_, .f32⟩
  | 17 => ⟨S50000x128, .f32⟩
  | 18 => ⟨S50000x128, .f32⟩
  | 19 => ⟨S50000, .i32⟩
  | 20 => ⟨S850000, .i32⟩
  | 21 => ⟨S850000, .i32⟩
  | 22 => ⟨S50000x128, .f32⟩
  | 23 => ⟨S_, .f32⟩
  | 24 => ⟨S850000, .f32⟩
  | 25 => ⟨S_, .f32⟩
  | 26 => ⟨S50000, .f32⟩
  | 27 => ⟨S850000x1, .i32⟩
  | 28 => ⟨S50000, .f32⟩
  | 29 => ⟨S_, .f32⟩
  | 30 => ⟨S50000, .f32⟩
  | 31 => ⟨S50000, .i1⟩
  | 32 => ⟨S_, .f32⟩
  | 33 => ⟨S50000, .f32⟩
  | 34 => ⟨S50000, .f32⟩
  | 35 => ⟨S50000, .f32⟩
  | 36 => ⟨S_, .f32⟩
  | 37 => ⟨S_, .f32⟩
  | 38 => ⟨S50000, .f32⟩
  | 39 => ⟨S50000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000, .f32⟩
  | 58 => ⟨S850000, .f32⟩
  | 59 => ⟨S_, .i32⟩
  | 60 => ⟨S850000, .i32⟩
  | 61 => ⟨S850000, .i1⟩
  | 62 => ⟨S_, .i32⟩
  | 63 => ⟨S850000, .i32⟩
  | 64 => ⟨S850000, .i32⟩
  | 65 => ⟨S850000, .i32⟩
  | 66 => ⟨S850000x1, .i32⟩
  | 67 => ⟨S850000x128, .f32⟩
  | 68 => ⟨S850000x1, .f32⟩
  | 69 => ⟨S850000x128, .f32⟩
  | 70 => ⟨S850000x128, .f32⟩
  | 71 => ⟨S_, .f32⟩
  | 72 => ⟨S50000x128, .f32⟩
  | 73 => ⟨S850000x1, .i32⟩
  | 74 => ⟨S50000x128, .f32⟩
  | 75 => ⟨S1x128, .f32⟩
  | 76 => ⟨S50000x128, .f32⟩
  | 77 => ⟨S50000x128, .f32⟩
  | 78 => ⟨S_, .f32⟩
  | 79 => ⟨S50000x128, .f32⟩
  | 80 => ⟨S50000x128, .f32⟩
  | 81 => ⟨S50000, .i32⟩
  | 82 => ⟨S850000, .i32⟩
  | 83 => ⟨S850000, .i32⟩
  | 84 => ⟨S50000x64, .f32⟩
  | 85 => ⟨S_, .f32⟩
  | 86 => ⟨S850000, .f32⟩
  | 87 => ⟨S_, .f32⟩
  | 88 => ⟨S50000, .f32⟩
  | 89 => ⟨S850000x1, .i32⟩
  | 90 => ⟨S50000, .f32⟩
  | 91 => ⟨S_, .f32⟩
  | 92 => ⟨S50000, .f32⟩
  | 93 => ⟨S50000, .i1⟩
  | 94 => ⟨S_, .f32⟩
  | 95 => ⟨S50000, .f32⟩
  | 96 => ⟨S50000, .f32⟩
  | 97 => ⟨S50000, .f32⟩
  | 98 => ⟨S_, .f32⟩
  | 99 => ⟨S_, .f32⟩
  | 100 => ⟨S50000, .f32⟩
  | 101 => ⟨S50000, .f32⟩
  | 102 => ⟨S_, .i32⟩
  | 103 => ⟨S850000, .i32⟩
  | 104 => ⟨S850000, .i1⟩
  | 105 => ⟨S_, .i32⟩
  | 106 => ⟨S850000, .i32⟩
  | 107 => ⟨S850000, .i32⟩
  | 108 => ⟨S850000, .i32⟩
  | 109 => ⟨S850000x1, .i32⟩
  | 110 => ⟨S850000, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000, .f32⟩
  | 120 => ⟨S850000, .f32⟩
  | 121 => ⟨S_, .i32⟩
  | 122 => ⟨S850000, .i32⟩
  | 123 => ⟨S850000, .i1⟩
  | 124 => ⟨S_, .i32⟩
  | 125 => ⟨S850000, .i32⟩
  | 126 => ⟨S850000, .i32⟩
  | 127 => ⟨S850000, .i32⟩
  | _ => ⟨S50000x180, .f32⟩

abbrev hbmTy0_1 (i : Nat) : BufTy := match i % 128 with
  | 0 => ⟨S850000x1, .i32⟩
  | 1 => ⟨S850000x64, .f32⟩
  | 2 => ⟨S850000x1, .f32⟩
  | 3 => ⟨S850000x64, .f32⟩
  | 4 => ⟨S850000x64, .f32⟩
  | 5 => ⟨S_, .f32⟩
  | 6 => ⟨S50000x64, .f32⟩
  | 7 => ⟨S850000x1, .i32⟩
  | 8 => ⟨S50000x64, .f32⟩
  | 9 => ⟨S1x64, .f32⟩
  | 10 => ⟨S50000x64, .f32⟩
  | 11 => ⟨S50000x64, .f32⟩
  | _ => ⟨S50000x180, .f32⟩

abbrev hbmTy (i : Nat) : BufTy := match i / 128 with
  | 0 => hbmTy0_0 i
  | 1 => hbmTy0_1 i
  | _ => ⟨S50000x180, .f32⟩

abbrev bufTy : (tb : Table) → Fin (tcTables nBuf tb) → BufTy
  | .hbm, ⟨i, _⟩ => hbmTy i
  | _, _ => ⟨S50000x180, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_cst : Ref sig .tc := ⟨.hbm, 16, rfl⟩
abbrev main_call0_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_call1_v0 : Ref sig .tc := ⟨.hbm, 37, rfl⟩
abbrev main_call1_v1 : Ref sig .tc := ⟨.hbm, 38, rfl⟩
abbrev main_v22 : Ref sig .tc := ⟨.hbm, 39, rfl⟩
abbrev main_c : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_7 : Ref sig .tc := ⟨.hbm, 59, rfl⟩
abbrev main_v38 : Ref sig .tc := ⟨.hbm, 60, rfl⟩
abbrev main_v39 : Ref sig .tc := ⟨.hbm, 61, rfl⟩
abbrev main_c_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_call2_cst : Ref sig .tc := ⟨.hbm, 78, rfl⟩
abbrev main_call2_v0 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_10 : Ref sig .tc := ⟨.hbm, 85, rfl⟩
abbrev main_v59 : Ref sig .tc := ⟨.hbm, 86, rfl⟩
abbrev main_cst_11 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_12 : Ref sig .tc := ⟨.hbm, 91, rfl⟩
abbrev main_v63 : Ref sig .tc := ⟨.hbm, 92, rfl⟩
abbrev main_v64 : Ref sig .tc := ⟨.hbm, 93, rfl⟩
abbrev main_cst_13 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_14 : Ref sig .tc := ⟨.hbm, 98, rfl⟩
abbrev main_call3_v0 : Ref sig .tc := ⟨.hbm, 99, rfl⟩
abbrev main_call3_v1 : Ref sig .tc := ⟨.hbm, 100, rfl⟩
abbrev main_v68 : Ref sig .tc := ⟨.hbm, 101, rfl⟩
abbrev main_c_15 : Ref sig .tc := ⟨.hbm, 102, rfl⟩
abbrev main_v69 : Ref sig .tc := ⟨.hbm, 103, rfl⟩
abbrev main_v70 : Ref sig .tc := ⟨.hbm, 104, rfl⟩
abbrev main_c_16 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_c_17 : Ref sig .tc := ⟨.hbm, 111, rfl⟩
abbrev main_v76 : Ref sig .tc := ⟨.hbm, 112, rfl⟩
abbrev main_v77 : Ref sig .tc := ⟨.hbm, 113, rfl⟩
abbrev main_c_18 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_c_19 : Ref sig .tc := ⟨.hbm, 121, rfl⟩
abbrev main_v84 : Ref sig .tc := ⟨.hbm, 122, rfl⟩
abbrev main_v85 : Ref sig .tc := ⟨.hbm, 123, rfl⟩
abbrev main_c_20 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_cst_21 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x180_S180x128_S50000x128_1_0_0_1_n_n_wf : DotDims.WF S50000x180 S180x128 S50000x128 [1] [0] [0] [1] [] []
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x180_S180x128_S50000x128_1_0_0_1_n_n : DotDims S50000x180 S180x128 S50000x128 where
  lhsContracting := [1]
  rhsContracting := [0]
  lhsNonContracting := [0]
  rhsNonContracting := [1]
  lhsBatch := []
  rhsBatch := []
  wf := dot_S50000x180_S180x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Spec.lean ====
/-
  The mathematics both programs compute, written once over whole arrays.

  A two-layer graph convolution on 50000 nodes and 800000 edges plus one self loop per node:
    h0  = relu (x · W + b)                       -- a dense layer, [50000,180] · [180,128]
    h1  = relu (A (h0 · W1) + b1)                 -- a convolution, width 128
    out =       A (h1 · W2) + b2                  -- a convolution, width 64
  where the aggregation A sums, at each destination node d, the source rows scaled by
  dis[s] · dis[d], dis = deg^(-1/2) where the in-degree deg is positive and 0 elsewhere.
  The edge list fixes the index vectors, the degrees and the scales; the float inputs enter only
  through the three matrix products and the three bias additions.

  Each stage is a function of whole arrays. The host stages (index vectors, degrees, scales, gather, scale,
  scatter-add) are spelt with the host operations themselves, so that neither side of the comparison opens
  them: both programs apply these same operations, and the proof only ever compares what goes INTO them.
-/
import proofs.«119093_j65197603553735_1_alg».proof.Proof.Gen.ReferenceIdeal

noncomputable section

namespace Cert.Gcn

open Cert.ReferenceIdeal Cert.ReferenceIdeal.Gen Idealize.ShloMosaic Idealize.SL.Sem

variable {F : FTy → Type} [FloatOps F]

/-! ## The edge list: index vectors, degrees, scales -/

/-- Row `r` of the edge list followed by the self loops `0 … 49999`: 850000 node ids. -/
def withLoops0 (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

def withLoops1 (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A node id read Python's way: a negative id counts from the end. -/
def wrapIdx (v : (⟨S850000, .i32⟩ : BufTy).Contents (Elt F)) : (⟨S850000, .i32⟩ : BufTy).Contents (Elt F) :=
  select (cmpi .slt v (broadcastInDim S850000 ![] bcast_S_S850000 (constantI S_ 32 0#32))) (addi v (broadcastInDim S850000 ![] bcast_S_S850000 (constantI S_ 32 50000#32))) v

/-- The in-degree of every node: ones scattered to the destinations. -/
def degree (d : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 d) (broadcastInDim S850000 ![] bcast_S_S850000 (constant S_ .f32 0x3F800000#32))

/-- deg^(-1/2) where the degree is positive, 0 elsewhere. -/
def invSqrtDeg (d : (⟨S850000, .i32⟩ : BufTy).Contents (Elt F)) : (⟨S50000, .f32⟩ : BufTy).Contents (Elt F) :=
  select (cmpf (F := F) .ogt (degree d) (broadcastInDim S50000 ![] bcast_S_S50000 (constant S_ .f32 0x00000000#32))) (Host.rsqrt (maximumf (degree d) (broadcastInDim S50000 ![] bcast_S_S50000 (constant S_ .f32 0x3F800000#32)))) (broadcastInDim S50000 ![] bcast_S_S50000 (id (constant S_ .f32 0x00000000#32)))

/-- The scale of every edge: dis[source] · dis[destination]. -/
def edgeScale (s d : (⟨S850000, .i32⟩ : BufTy).Contents (Elt F)) : (⟨S850000, .f32⟩ : BufTy).Contents (Elt F) :=
  mulf (Host.gather gather_S50000_S850000x1_S850000_n_0_n_n_0_1_1 (invSqrtDeg d) (broadcastInDim S850000x1 ![0] bcast_S850000_S850000x1_0 (wrapIdx s))) (Host.gather gather_S50000_S850000x1_S850000_n_0_n_n_0_1_1 (invSqrtDeg d) (broadcastInDim S850000x1 ![0] bcast_S850000_S850000x1_0 (wrapIdx d)))

/-! ## The aggregation, at widths 128 and 64 -/

/-- Source rows gathered, scaled per edge, summed at the destinations (width 128), from the two index vectors. -/
def aggregate128 (xw : (⟨S50000x128, .f32⟩ : BufTy).Contents (Elt F)) (s d : (⟨S850000, .i32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 d) (mulf (Host.gather gather_S50000x128_S850000x1_S850000x128_1_0_n_n_0_1_1128 xw (broadcastInDim S850000x1 ![0] bcast_S850000_S850000x1_0 (wrapIdx s))) (broadcastInDim S850000x128 ![0, 1] bcast_S850000x1_S850000x128_0_1 (broadcastInDim S850000x1 ![0] bcast_S850000_S850000x1_0 (edgeScale s d))))

/-- The same at width 64. -/
def aggregate64 (xw : (⟨S50000x64, .f32⟩ : BufTy).Contents (Elt F)) (s d : (⟨S850000, .i32⟩ : BufTy).Contents (Elt F)) : (⟨S50000x64, .f32⟩ : BufTy).Contents (Elt F) :=
  Host.scatterAdd scatter_S50000x64_S850000x1_S850000x64_1_0_0_1 (broadcastInDim S50000x64 ![] bcast_S_S50000x64 (constant S_ .f32 0x00000000#32)) (broadcastInDim S850000x1 ![0] bcast_S850000_S850000x1_0 d) (mulf (Host.gather gather_S50000x64_S850000x1_S850000x64_1_0_n_n_0_1_164 xw (broadcastInDim S850000x1 ![0] bcast_S850000_S850000x1_0 (wrapIdx s))) (broadcastInDim S850000x64 ![0, 1] bcast_S850000x1_S850000x64_0_1 (broadcastInDim S850000x1 ![0] bcast_S850000_S850000x1_0 (edgeScale s d))))

/-! ## The dense stages (the bias as a ROW, [1, n]) -/

/-- relu (x · w + row), [50000,180] · [180,128]. -/
def denseRelu (x : (⟨S50000x180, .f32⟩ : BufTy).Contents (Elt F)) (w : (⟨S180x128, .f32⟩ : BufTy).Contents (Elt F)) (row : (⟨S1x128, .f32⟩ : BufTy).Contents (Elt F)) : (⟨S50000x128, .f32⟩ : BufTy).Contents (Elt F) :=
  maximumf (addf (Host.dotGeneral dot_S50000x180_S180x128_S50000x128_1_0_0_1_n_n none x w) (broadcastInDim S50000x128 ![0, 1] bcast_S1x128_S50000x128_0_1 row)) (broadcastInDim S50000x128 ![] bcast_S_S50000x128 (constant S_ .f32 0x00000000#32))

/-- h · w, [50000,128] · [128,128]. -/
def project128 (h : (⟨S50000x128, .f32⟩ : BufTy).Contents (Elt F)) (w : (⟨S128x128, .f32⟩ : BufTy).Contents (Elt F)) : (⟨S50000x128, .f32⟩ : BufTy).Contents (Elt F) :=
  Host.dotGeneral dot_S50000x128_S128x128_S50000x128_1_0_0_1_n_n none h w

/-- relu (a + row) at width 128. -/
def biasRelu128 (a : (⟨S50000x128, .f32⟩ : BufTy).Contents (Elt F)) (row : (⟨S1x128, .f32⟩ : BufTy).Contents (Elt F)) : (⟨S50000x128, .f32⟩ : BufTy).Contents (Elt F) :=
  maximumf (addf a (broadcastInDim S50000x128 ![0, 1] bcast_S1x128_S50000x128_0_1 row)) (broadcastInDim S50000x128 ![] bcast_S_S50000x128 (constant S_ .f32 0x00000000#32))

/-- h · w, [50000,128] · [128,64]. -/
def project64 (h : (⟨S50000x128, .f32⟩ : BufTy).Contents (Elt F)) (w : (⟨S128x64, .f32⟩ : BufTy).Contents (Elt F)) : (⟨S50000x64, .f32⟩ : BufTy).Contents (Elt F) :=
  Host.dotGeneral dot_S50000x128_S128x64_S50000x64_1_0_0_1_n_n none h w

/-- a + row at width 64. -/
def bias64 (a : (⟨S50000x64, .f32⟩ : BufTy).Contents (Elt F)) (row : (⟨S1x64, .f32⟩ : BufTy).Contents (Elt F)) : (⟨S50000x64, .f32⟩ : BufTy).Contents (Elt F) :=
  addf a (broadcastInDim S50000x64 ![0, 1] bcast_S1x64_S50000x64_0_1 row)

/-- A bias vector as a row. -/
def row128 (b : (⟨S128, .f32⟩ : BufTy).Contents (Elt F)) : (⟨S1x128, .f32⟩ : BufTy).Contents (Elt F) := broadcastInDim S1x128 ![1] bcast_S128_S1x128_1 b
def row64 (b : (⟨S64, .f32⟩ : BufTy).Contents (Elt F)) : (⟨S1x64, .f32⟩ : BufTy).Contents (Elt F) := broadcastInDim S1x64 ![1] bcast_S64_S1x64_1 b

/-! ## The whole network -/

def network (x : (⟨S50000x180, .f32⟩ : BufTy).Contents (Elt F)) (w : (⟨S180x128, .f32⟩ : BufTy).Contents (Elt F)) (b : (⟨S128, .f32⟩ : BufTy).Contents (Elt F))
    (w1 : (⟨S128x128, .f32⟩ : BufTy).Contents (Elt F)) (b1 : (⟨S128, .f32⟩ : BufTy).Contents (Elt F)) (w2 : (⟨S128x64, .f32⟩ : BufTy).Contents (Elt F)) (b2 : (⟨S64, .f32⟩ : BufTy).Contents (Elt F))
    (e : (⟨S2x800000, .i32⟩ : BufTy).Contents (Elt F)) : (⟨S50000x64, .f32⟩ : BufTy).Contents (Elt F) :=
  bias64 (aggregate64 (project64 (biasRelu128 (aggregate128 (project128 (denseRelu x w (row128 b)) w1) (withLoops0 e) (withLoops1 e)) (row128 b1)) w2) (withLoops0 e) (withLoops1 e)) (row64 b2)

end Cert.Gcn

end
-- ==== Proof.LibPlainDot.lean ====
/-
  A plain matrix product's contraction, read as a sum over the shared extent.

  For the dimension numbers of an M×K by K×N product (contract the left operand's axis 1 against the right
  operand's axis 0, no batch axes), the sum over the contraction index of the operands' products at a result index
  `j` is the textbook `∑ k < K, l (j₀, k) · r (k, j₁)`. Both a kernel's `tpu.matmul` into a zero accumulator and
  the host's `dot_general` read, at the ideal values, as that contraction sum (PureOps/Ideal/Laws.lean), so two
  products of different row counts over the same K and N meet in this form.
-/
import Idealize.ShloMosaic.PureOps.Ideal.Laws
import Idealize.ShloMosaic.Lib.ValueIdx

noncomputable section

namespace Idealize.ShloMosaic.PlainDot

open Idealize.ShloMosaic Idealize.ShloMosaic.ValueIdx

/-- The contraction shape of a plain product has one axis. -/
theorem contr_rank (M K N : Nat) : (DotDims.plain M K N).contr.rank = 1 := rfl
/-- Its extent is the shared one. -/
theorem contr_size (M K N : Nat) : (DotDims.plain M K N).contr.size ⟨0, by rw [contr_rank]; exact Nat.one_pos⟩ = K := rfl

/-- The left operand is read at row `j₀`, column `k`. -/
theorem lhsIdx_eq (M K N : Nat) (j : (⟨2, ![M, N]⟩ : Shape).Idx) (k : Fin K) :
    (DotDims.plain M K N).lhsIdx j ((contrEquiv1 (DotDims.plain M K N) K (contr_rank M K N) (contr_size M K N)).symm k) = ix2 (j 0) k := by
  funext a
  apply Fin.ext
  match a with
  | ⟨0, _⟩ => rfl
  | ⟨1, _⟩ => rfl

/-- The right operand is read at row `k`, column `j₁`. -/
theorem rhsIdx_eq (M K N : Nat) (j : (⟨2, ![M, N]⟩ : Shape).Idx) (k : Fin K) :
    (DotDims.plain M K N).rhsIdx j ((contrEquiv1 (DotDims.plain M K N) K (contr_rank M K N) (contr_size M K N)).symm k) = ix2 k (j 1) := by
  funext a
  apply Fin.ext
  match a with
  | ⟨0, _⟩ => rfl
  | ⟨1, _⟩ => rfl

/-- The contraction sum of a plain product is the sum over the shared extent. -/
theorem sum_eq (M K N : Nat) (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K (contr_rank M K N) (contr_size M K N)).symm]
  refine Finset.sum_congr rfl fun k _ => ?_
  rw [lhsIdx_eq, rhsIdx_eq]
  rfl

/-- A `tpu.matmul` into the zero accumulator, at the ideal values, over plain dimension numbers. -/
theorem matmul_zero_apply (M K N : Nat) {φ₁ φ₂ : FTy} (l : FVec Ideal ⟨2, ![M, K]⟩ φ₁) (r : FVec Ideal ⟨2, ![K, N]⟩ φ₂)
    (j : (⟨2, ![M, N]⟩ : Shape).Idx) :
    FloatOps.matmul (DotDims.plain M K N) none l r (constant ⟨2, ![M, N]⟩ .f32 0x00000000#32) j
      = ∑ k : Fin K, l (ix2 (j 0) k) * r (ix2 k (j 1)) := by
  rw [Ideal.matmul_constant_zero_apply]; exact sum_eq M K N l r j

/-- The host's `dot_general`, at the ideal values, over plain dimension numbers. -/
theorem dotGeneral_apply (M K N : Nat) {φ₁ φ₂ : FTy} (sched : HostSchedule) (l : FVec Ideal ⟨2, ![M, K]⟩ φ₁) (r : FVec Ideal ⟨2, ![K, N]⟩ φ₂)
    (j : (⟨2, ![M, N]⟩ : Shape).Idx) :
    FloatOps.dotGeneral (DotDims.plain M K N) none sched l r j = ∑ k : Fin K, l (ix2 (j 0) k) * r (ix2 k (j 1)) := by
  rw [Ideal.dotGeneral_apply]; exact sum_eq M K N l r j

end Idealize.ShloMosaic.PlainDot

end
-- ==== Proof.Dense0.lean ====
/-
  The first pallas_call: relu (x · W + b), ten row blocks of 5000 rows.

  Point t of the grid reads rows 5000 t … 5000 t + 4999 of x, all of W and the bias row, and writes the same rows of
  the result. At the ideal values the block's matrix product into a zero accumulator is, entry by entry, the sum over
  the 180 shared coordinates of the products; that sum does not see which block the row came from, so the ten blocks
  written back are the ten row ranges of ONE whole-array function: the host's dot_general of the whole arrays, plus the
  bias row on every row, floored at zero (Spec.lean's denseRelu). The blocks cover the array, so the array ends at it.
-/
import proofs.«119093_j65197603553735_1_alg».proof.Proof.Spec
import proofs.«119093_j65197603553735_1_alg».proof.Proof.Gen.KernelIdeal.Frame
import Idealize.ShloMosaic.Lib.Pipeline.Value
import Idealize.ShloMosaic.PureOps.Ideal.Laws
import Idealize.ShloMosaic.Lib.ValueIdx
import Idealize.ShloMosaic.Lib.StableHlo.Run
import proofs.«119093_j65197603553735_1_alg».proof.Proof.LibPlainDot

set_option maxRecDepth 16384

noncomputable section

open Idealize.ShloMosaic Idealize.ShloMosaic.TcCoe Idealize.SL.Sem
open Idealize.ShloMosaic.Pipeline (Dat Cfg Window)
open Cert.KernelIdeal Cert.KernelIdeal.Gen

open Idealize.ShloMosaic.ValueIdx

namespace Cert.KernelIdeal.Dense0

/-- The block offsets of a store or load through a whole staging buffer are zero. -/
theorem zero_offsets : (![0, 0] : Fin 2 → Nat) = fun _ => 0 := funext fun a => by fin_cases a <;> rfl

/-- The kernel's dimension numbers are those of a plain 5000×180 by 180×128 product. -/
theorem kernel_dims : dot_S5000x180_S180x128_S5000x128_1_0_0_1_n_n = DotDims.plain 5000 180 128 := rfl
/-- The reference's are those of a plain 50000×180 by 180×128 product. -/
theorem host_dims : Cert.ReferenceIdeal.dot_S50000x180_S180x128_S50000x128_1_0_0_1_n_n = DotDims.plain 50000 180 128 := rfl

/-- The whole-array function at an index: row i₀ of x against column i₁ of W, plus the bias at i₁, floored at 0. -/
theorem denseRelu_apply (X : FVec Ideal S50000x180 .f32) (Wt : FVec Ideal S180x128 .f32) (B : FVec Ideal S1x128 .f32)
    (i : S50000x128.Idx) :
    Cert.Gcn.denseRelu (F := Ideal) X Wt B i
      = max ((∑ k : Fin 180, X (ix2 (i 0) k) * Wt (ix2 k (i 1))) + B (ix2 ⟨0, by decide⟩ (i 1))) (Ideal.ofBits .f32 0x00000000#32) := by
  unfold Cert.Gcn.denseRelu
  rw [maximumf_apply, addf_apply]
  rw [broadcastInDim_apply ![0, 1] _ B i (ix2 ⟨0, by decide⟩ (i 1)) (by intro a; match a with | ⟨0, _⟩ => rfl | ⟨1, _⟩ => rfl)]
  rw [broadcastInDim_apply ![] _ (constant (F := Ideal) Cert.ReferenceIdeal.S_ .f32 0x00000000#32) i ix0 (by intro a; exact a.elim0)]
  rw [constant_apply]
  refine congrArg (fun z => max (z + _) _) ?_
  unfold Host.dotGeneral
  rw [host_dims]
  exact Idealize.ShloMosaic.PlainDot.dotGeneral_apply 50000 180 128 _ X Wt i

/-- The block's payload at an index: the block row y₀ of x against column y₁ of W, plus the bias at y₁, floored at 0. -/
theorem pay_apply (x0 : Vec Ideal S5000x180 .f32) (x1 : Vec Ideal S180x128 .f32) (x2 : Vec Ideal S1x128 .f32) (y : S5000x128.Idx) :
    k0_pay1 (F := Ideal) x0 x1 x2 y
      = max ((∑ k : Fin 180, x0 (ix2 (y 0) k) * x1 (ix2 k (y 1))) + x2 (ix2 ⟨0, by decide⟩ (y 1))) (Ideal.ofBits .f32 0x00000000#32) := by
  unfold k0_pay1
  rw [maximumf_apply, addf_apply, broadcast_apply]
  rw [broadcastTo_apply _ broadcasts_S1x128_S5000x128 y (ix2 ⟨0, by decide⟩ (y 1)) (by intro a; match a with | ⟨0, _⟩ => rfl | ⟨1, _⟩ => rfl)]
  rw [shapeCast_self]
  refine congrArg (fun z => max (z + _) _) ?_
  rw [kernel_dims]
  exact Idealize.ShloMosaic.PlainDot.matmul_zero_apply 5000 180 128 _ _ y

section Region
variable (V : (c : Dev nD) → (b : Ref sig .tc) → Buf (Elt Ideal) ((c : Thread nD τ).loc b))

/-- The printed index maps over the grid: the row-block windows sit at block (t, 0), the whole windows at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is rows 5000 t … of the whole-array function of the arrays as the region finds them. -/
theorem flushed_eq (c : Dev nD) (t : Fin cfg0.N) :
    (dat0 V c).flushed 3 t = ((cfg0.win 3).blk t).view.read (Elt Ideal)
      (Cert.Gcn.denseRelu (F := Ideal) (V c main_arg0) (V c main_arg1) (V c main_v4)) := by
  show (cfg0.win 3).cut (grid0.coords t) ((dat0 V c).after 3 t) = _
  rw [after0_3]
  unfold out0_3
  rw [View.canon_unit_zero zero_offsets]
  simp only [View.ld_unit_zero (S := S5000x180) zero_offsets, View.ld_unit_zero (S := S180x128) zero_offsets,
    View.ld_unit_zero (S := S1x128) zero_offsets]
  obtain ⟨e00, e01, e10, e11, e20, e21, e30, e31⟩ := idx_facts t
  funext y
  show k0_pay1 (F := Ideal) (iblk0 V c 0 t) (iblk0 V c 1 t) (iblk0 V c 2 t) y
     = Cert.Gcn.denseRelu (F := Ideal) (V c main_arg0) (V c main_arg1) (V c main_v4) (((cfg0.win 3).blk t).view.emb y)
  refine (pay_apply (iblk0 V c 0 t) (iblk0 V c 1 t) (iblk0 V c 2 t) y).trans ?_
  refine Eq.trans ?_ (denseRelu_apply (V c main_arg0) (V c main_arg1) (V c main_v4) (((cfg0.win 3).blk t).view.emb y)).symm
  -- the block reads, index by index, where the output's rectangle says
  have hx : ∀ k : Fin 180, iblk0 V c 0 t (ix2 (y 0) k) = V c main_arg0 (ix2 ((((cfg0.win 3).blk t).view.emb y) 0) k) := fun k => by
    show V c main_arg0 (((cfg0.win 0).blk t).view.emb (ix2 (y 0) k)) = V c main_arg0 (ix2 ((((cfg0.win 3).blk t).view.emb y) 0) k)
    refine congrArg (V c main_arg0) (funext fun a => Fin.ext ?_)
    match a with
    | ⟨0, _⟩ =>
      show win0_0.index t (0 : Fin 2) * 5000 + 1 * (y 0).val = win0_3.index t (0 : Fin 2) * 5000 + 1 * (y 0).val
      omega
    | ⟨1, _⟩ =>
      show win0_0.index t (1 : Fin 2) * 180 + 1 * k.val = k.val
      omega
  have hw : ∀ k : Fin 180, iblk0 V c 1 t (ix2 k (y 1)) = V c main_arg1 (ix2 k ((((cfg0.win 3).blk t).view.emb y) 1)) := fun k => by
    show V c main_arg1 (((cfg0.win 1).blk t).view.emb (ix2 k (y 1))) = V c main_arg1 (ix2 k ((((cfg0.win 3).blk t).view.emb y) 1))
    refine congrArg (V c main_arg1) (funext fun a => Fin.ext ?_)
    match a with
    | ⟨0, _⟩ =>
      show win0_1.index t (0 : Fin 2) * 180 + 1 * k.val = k.val
      omega
    | ⟨1, _⟩ =>
      show win0_1.index t (1 : Fin 2) * 128 + 1 * (y 1).val = win0_3.index t (1 : Fin 2) * 128 + 1 * (y 1).val
      omega
  have hb : iblk0 V c 2 t (ix2 ⟨0, by decide⟩ (y 1)) = V c main_v4 (ix2 ⟨0, by decide⟩ ((((cfg0.win 3).blk t).view.emb y) 1)) := by
    show V c main_v4 (((cfg0.win 2).blk t).view.emb (ix2 ⟨0, by decide⟩ (y 1))) = V c main_v4 (ix2 ⟨0, by decide⟩ ((((cfg0.win 3).blk t).view.emb y) 1))
    refine congrArg (V c main_v4) (funext fun a => Fin.ext ?_)
    match a with
    | ⟨0, _⟩ =>
      show win0_2.index t (0 : Fin 2) * 1 + 1 * 0 = 0
      omega
    | ⟨1, _⟩ =>
      show win0_2.index t (1 : Fin 2) * 128 + 1 * (y 1).val = win0_3.index t (1 : Fin 2) * 128 + 1 * (y 1).val
      omega
  rw [hb]
  refine congrArg (fun z => max (z + _) _) (Finset.sum_congr rfl fun k _ => ?_)
  rw [hx k, hw k]

/-- An index of the result is in point t's block iff each coordinate is in the block's range on its axis. -/
theorem mem_blk (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v5).slice (win0_3.rect t)).set ↔ _
  rw [View.set_slice_whole, Rect.mem_set_unit]
  exact Iff.rfl

/-- Row r of the result is in the block of point r / 5000: the ten blocks cover the array. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : (i 0).val / 5000 < cfg0.N := by rw [show cfg0.N = 10 from N_0]; omega
  refine ⟨⟨(i 0).val / 5000, hN⟩, flush0_3 _, ?_⟩
  rw [mem_blk]
  obtain ⟨-, -, -, -, -, -, e30, e31⟩ := idx_facts ⟨(i 0).val / 5000, hN⟩
  intro a
  match a with
  | ⟨0, _⟩ =>
    show win0_3.index ⟨(i 0).val / 5000, hN⟩ (0 : Fin 2) * 5000 ≤ (i 0).val
      ∧ (i 0).val < win0_3.index ⟨(i 0).val / 5000, hN⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, hN⟩ (1 : Fin 2) * 128 ≤ (i 1).val
      ∧ (i 1).val < win0_3.index ⟨(i 0).val / 5000, hN⟩ (1 : Fin 2) * 128 + 128
    rw [e31]; omega

/-- The array after the region: the whole-array function of the arrays as the region finds them. -/
theorem final0 (c : Dev nD) :
    (dat0 V c).arrAt 3 cfg0.N = Cert.Gcn.denseRelu (F := Ideal) (V c main_arg0) (V c main_arg1) (V c main_v4) :=
  (dat0 V c).arrAt_eq_of_cover 3 _ (fun t _ => flushed_eq V c t) cover

end Region

end Cert.KernelIdeal.Dense0

end
-- ==== Proof.Bias2.lean ====
/-
  The third pallas_call: relu (a + b1), ten row blocks of 5000 rows, width 128.

  Point t of the grid reads rows 5000 t … 5000 t + 4999 of the aggregated array and the whole bias row, and writes
  the same rows of the result. The body is pointwise: entry (r, j) of the block is the block's entry plus the bias at
  column j, floored at zero. The block's entry is the array's entry at the place the output block sits, so the ten
  blocks written back are the ten row ranges of ONE whole-array function, relu (a + row) (Spec.lean's biasRelu128).
  The blocks cover the array, so the array ends at it.
-/
import proofs.«119093_j65197603553735_1_alg».proof.Proof.Spec
import proofs.«119093_j65197603553735_1_alg».proof.Proof.Gen.KernelIdeal.Frame
import Idealize.ShloMosaic.Lib.Pipeline.Value
import Idealize.ShloMosaic.PureOps.Ideal.Laws
import Idealize.ShloMosaic.Lib.ValueIdx
import Idealize.ShloMosaic.Lib.StableHlo.Run
import proofs.«119093_j65197603553735_1_alg».proof.Proof.LibPlainDot

set_option maxRecDepth 16384

noncomputable section

open Idealize.ShloMosaic Idealize.ShloMosaic.TcCoe Idealize.SL.Sem
open Idealize.ShloMosaic.Pipeline (Dat Cfg Window)
open Cert.KernelIdeal Cert.KernelIdeal.Gen
open Idealize.ShloMosaic.ValueIdx

namespace Cert.KernelIdeal.Bias2

/-- The block offsets of a store or load through a whole staging buffer are zero. -/
theorem zero_offsets : (![0, 0] : Fin 2 → Nat) = fun _ => 0 := funext fun a => by fin_cases a <;> rfl

/-- The whole-array function at an index: the entry plus the bias at its column, floored at 0. -/
theorem biasRelu128_apply (A : FVec Ideal S50000x128 .f32) (B : FVec Ideal S1x128 .f32) (i : S50000x128.Idx) :
    Cert.Gcn.biasRelu128 (F := Ideal) A B i
      = max (A i + B (ix2 ⟨0, by decide⟩ (i 1))) (Ideal.ofBits .f32 0x00000000#32) := by
  unfold Cert.Gcn.biasRelu128
  rw [maximumf_apply, addf_apply]
  rw [broadcastInDim_apply ![0, 1] _ B i (ix2 ⟨0, by decide⟩ (i 1)) (by intro a; match a with | ⟨0, _⟩ => rfl | ⟨1, _⟩ => rfl)]
  rw [broadcastInDim_apply ![] _ (constant (F := Ideal) Cert.ReferenceIdeal.S_ .f32 0x00000000#32) i ix0 (by intro a; exact a.elim0)]
  rw [constant_apply]

/-- The block's payload at an index: the block's entry plus the bias at its column, floored at 0. -/
theorem pay_apply (x0 : Vec Ideal S5000x128 .f32) (x1 : Vec Ideal S1x128 .f32) (y : S5000x128.Idx) :
    k2_pay1 (F := Ideal) x0 x1 y
      = max (x0 y + x1 (ix2 ⟨0, by decide⟩ (y 1))) (Ideal.ofBits .f32 0x00000000#32) := by
  unfold k2_pay1
  rw [maximumf_apply, addf_apply, broadcast_apply]
  rw [broadcastTo_apply _ broadcasts_S1x128_S5000x128 y (ix2 ⟨0, by decide⟩ (y 1)) (by intro a; match a with | ⟨0, _⟩ => rfl | ⟨1, _⟩ => rfl)]
  rw [shapeCast_self, shapeCast_self]
  rfl

/-- The index maps over the grid: the input block and the output block move together down the rows, block t at point t;
    the bias row's block stays at the origin. -/
theorem idx_facts : ∀ t : Fin cfg2.N, win2_0.index t (0 : Fin 2) = win2_2.index t (0 : Fin 2)
    ∧ win2_0.index t (1 : Fin 2) = win2_2.index t (1 : Fin 2)
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What point t writes back is block t of the whole-array function of the arrays the region found: the payload at a
    block index reads the input block's entry and the bias row's column, and the input block's entry is the array's at
    the same place the output block sits. -/
theorem flushed_eq (c : Dev nD) (t : Fin cfg2.N) :
    (dat2 V c).flushed 2 t = ((cfg2.win 2).blk t).view.read (Elt Ideal) (Cert.Gcn.biasRelu128 (F := Ideal) (V c main_v49) (V c main_v50)) := by
  show (cfg2.win 2).cut (grid2.coords t) ((dat2 V c).after 2 t) = _
  rw [after2_2]
  unfold out2_2
  rw [View.canon_unit_zero zero_offsets]
  simp only [View.ld_unit_zero (S := S5000x128) zero_offsets, View.ld_unit_zero (S := S1x128) zero_offsets]
  obtain ⟨e0, e1, e2, e3, e4, e5⟩ := idx_facts t
  funext y
  refine (pay_apply (iblk2 V c 0 t) (iblk2 V c 1 t) y).trans ?_
  refine Eq.trans ?_ (biasRelu128_apply (V c main_v49) (V c main_v50) (((cfg2.win 2).blk t).view.emb y)).symm
  have h0 : ((cfg2.win 0).blk t).view.emb y = ((cfg2.win 2).blk t).view.emb y := by
    funext a; apply Fin.ext
    match a with
    | ⟨0, _⟩ => show win2_0.index t (0 : Fin 2) * 5000 + 1 * (y 0).val = win2_2.index t (0 : Fin 2) * 5000 + 1 * (y 0).val; omega
    | ⟨1, _⟩ => show win2_0.index t (1 : Fin 2) * 128 + 1 * (y 1).val = win2_2.index t (1 : Fin 2) * 128 + 1 * (y 1).val; omega
  have h1 : ((cfg2.win 1).blk t).view.emb (ix2 ⟨0, by decide⟩ (y 1) : S1x128.Idx) = (ix2 ⟨0, by decide⟩ (((cfg2.win 2).blk t).view.emb y 1) : S1x128.Idx) := by
    funext a; apply Fin.ext
    match a with
    | ⟨0, _⟩ => show win2_1.index t (0 : Fin 2) * 1 + 1 * 0 = 0; omega
    | ⟨1, _⟩ => show win2_1.index t (1 : Fin 2) * 128 + 1 * (y 1).val = win2_2.index t (1 : Fin 2) * 128 + 1 * (y 1).val; omega
  have p : iblk2 V c 0 t y = V c main_v49 (((cfg2.win 2).blk t).view.emb y) := congrArg (V c main_v49) h0
  have q : iblk2 V c 1 t (ix2 ⟨0, by decide⟩ (y 1) : S1x128.Idx) = V c main_v50 (ix2 ⟨0, by decide⟩ (((cfg2.win 2).blk t).view.emb y 1) : S1x128.Idx) := congrArg (V c main_v50) h1
  exact congrArg₂ (fun (u v : EReal) => max (u + v) (Ideal.ofBits .f32 0x00000000#32)) p q

/-- An index of the array is in point t's block iff each coordinate is in the block's range on its axis. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v51).slice (win2_2.rect t)).set ↔ _
  rw [View.set_slice_whole, Rect.mem_set_unit]
  exact Iff.rfl

/-- The ten row blocks cover the array: row r lies in block r / 5000, and every block spans all 128 columns. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have ht : (i 0).val / 5000 < cfg2.N := by
    show (i 0).val / 5000 < grid2.N
    rw [N_2]; omega
  obtain ⟨e0, e1, e2, e3, e4, e5⟩ := idx_facts ⟨(i 0).val / 5000, ht⟩
  refine ⟨⟨(i 0).val / 5000, ht⟩, flush2_2 _, ?_⟩
  rw [mem_blk]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    have e4' : win2_2.index ⟨(i 0).val / 5000, ht⟩ (0 : Fin 2) = (i 0).val / 5000 := e4
    omega
  | ⟨1, _⟩ =>
    show win2_2.index ⟨(i 0).val / 5000, ht⟩ (1 : Fin 2) * 128 ≤ (i 1).val ∧ (i 1).val < win2_2.index ⟨(i 0).val / 5000, ht⟩ (1 : Fin 2) * 128 + 128
    omega

/-- The output array after the region's run: relu (a + row) of the arrays the region found, whole. -/
theorem final2 (c : Dev nD) :
    (dat2 V c).arrAt 2 cfg2.N = Cert.Gcn.biasRelu128 (F := Ideal) (V c main_v49) (V c main_v50) :=
  (dat2 V c).arrAt_eq_of_cover 2 _ (fun t _ => flushed_eq V c t) (fun i => cover i)

end Cert.KernelIdeal.Bias2

end
-- ==== Proof.Dense3.lean ====
/-
  The fourth pallas_call: h · W2 with a zero row added, ten row blocks of 5000 rows, width 64.

  Point t reads rows 5000 t … 5000 t + 4999 of h, all of W2 and a row the host filled with zeros, and writes the same
  rows of the result. At the ideal values the block product into a zero accumulator is the sum over the 128 shared
  coordinates, a zero added to it changes nothing, and the sum does not see which block the row came from: the ten
  blocks are the ten row ranges of the host's dot_general of the whole arrays (Spec.lean's project64).
-/
import proofs.«119093_j65197603553735_1_alg».proof.Proof.Spec
import proofs.«119093_j65197603553735_1_alg».proof.Proof.Gen.KernelIdeal.Frame
import Idealize.ShloMosaic.Lib.Pipeline.Value
import Idealize.ShloMosaic.PureOps.Ideal.Laws
import Idealize.ShloMosaic.Lib.ValueIdx
import Idealize.ShloMosaic.Lib.StableHlo.Run
import proofs.«119093_j65197603553735_1_alg».proof.Proof.LibPlainDot

set_option maxRecDepth 16384

noncomputable section

open Idealize.ShloMosaic Idealize.ShloMosaic.TcCoe Idealize.SL.Sem
open Idealize.ShloMosaic.Pipeline (Dat Cfg Window)
open Cert.KernelIdeal Cert.KernelIdeal.Gen

open Idealize.ShloMosaic.ValueIdx

namespace Cert.KernelIdeal.Dense3

/-- The block offsets of a store or load through a whole staging buffer are zero. -/
theorem zero_offsets : (![0, 0] : Fin 2 → Nat) = fun _ => 0 := funext fun a => by fin_cases a <;> rfl

/-- The kernel's dimension numbers are those of a plain 5000×128 by 128×64 product. -/
theorem kernel_dims : dot_S5000x128_S128x64_S5000x64_1_0_0_1_n_n = DotDims.plain 5000 128 64 := rfl
/-- The reference's are those of a plain 50000×128 by 128×64 product. -/
theorem host_dims : Cert.ReferenceIdeal.dot_S50000x128_S128x64_S50000x64_1_0_0_1_n_n = DotDims.plain 50000 128 64 := rfl

/-- The whole-array product at an index: row i₀ of h against column i₁ of W. -/
theorem project64_apply (H : FVec Ideal S50000x128 .f32) (Wt : FVec Ideal S128x64 .f32) (i : S50000x64.Idx) :
    Cert.Gcn.project64 (F := Ideal) H Wt i = ∑ k : Fin 128, H (ix2 (i 0) k) * Wt (ix2 k (i 1)) := by
  unfold Cert.Gcn.project64 Host.dotGeneral
  rw [host_dims]
  exact Idealize.ShloMosaic.PlainDot.dotGeneral_apply 50000 128 64 _ H Wt i

/-- The block's payload at an index: the block row y₀ of h against column y₁ of W, plus the added row at y₁. -/
theorem pay_apply (x0 : Vec Ideal S5000x128 .f32) (x1 : Vec Ideal S128x64 .f32) (x2 : Vec Ideal S1x64 .f32) (y : S5000x64.Idx) :
    k3_pay1 (F := Ideal) x0 x1 x2 y
      = (∑ k : Fin 128, x0 (ix2 (y 0) k) * x1 (ix2 k (y 1))) + x2 (ix2 ⟨0, by decide⟩ (y 1)) := by
  unfold k3_pay1
  rw [addf_apply]
  rw [broadcastTo_apply _ broadcasts_S1x64_S5000x64 y (ix2 ⟨0, by decide⟩ (y 1)) (by intro a; match a with | ⟨0, _⟩ => rfl | ⟨1, _⟩ => rfl)]
  rw [shapeCast_self, shapeCast_self]
  refine congrArg (fun z => z + _) ?_
  rw [kernel_dims]
  exact Idealize.ShloMosaic.PlainDot.matmul_zero_apply 5000 128 64 _ _ y

section Region
variable (V : (c : Dev nD) → (b : Ref sig .tc) → Buf (Elt Ideal) ((c : Thread nD τ).loc b))

/-- The printed index maps over the grid: the row-block windows sit at block (t, 0), the whole windows at block (0, 0). -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point t writes back is rows 5000 t … of the whole-array product of the arrays as the region finds them, the
    added row being zero. -/
theorem flushed_eq (c : Dev nD) (hz : ∀ j, V c main_v56 j = (0 : EReal)) (t : Fin cfg3.N) :
    (dat3 V c).flushed 3 t = ((cfg3.win 3).blk t).view.read (Elt Ideal)
      (Cert.Gcn.project64 (F := Ideal) (V c main_v51) (V c main_arg5)) := by
  show (cfg3.win 3).cut (grid3.coords t) ((dat3 V c).after 3 t) = _
  rw [after3_3]
  unfold out3_3
  rw [View.canon_unit_zero zero_offsets]
  simp only [View.ld_unit_zero (S := S5000x128) zero_offsets, View.ld_unit_zero (S := S128x64) zero_offsets,
    View.ld_unit_zero (S := S1x64) zero_offsets]
  obtain ⟨e00, e01, e10, e11, e20, e21, e30, e31⟩ := idx_facts t
  funext y
  show k3_pay1 (F := Ideal) (iblk3 V c 0 t) (iblk3 V c 1 t) (iblk3 V c 2 t) y
     = Cert.Gcn.project64 (F := Ideal) (V c main_v51) (V c main_arg5) (((cfg3.win 3).blk t).view.emb y)
  refine (pay_apply (iblk3 V c 0 t) (iblk3 V c 1 t) (iblk3 V c 2 t) y).trans ?_
  refine Eq.trans ?_ (project64_apply (V c main_v51) (V c main_arg5) (((cfg3.win 3).blk t).view.emb y)).symm
  -- the block reads, index by index, where the output's rectangle says
  have hx : ∀ k : Fin 128, iblk3 V c 0 t (ix2 (y 0) k) = V c main_v51 (ix2 ((((cfg3.win 3).blk t).view.emb y) 0) k) := fun k => by
    show V c main_v51 (((cfg3.win 0).blk t).view.emb (ix2 (y 0) k)) = V c main_v51 (ix2 ((((cfg3.win 3).blk t).view.emb y) 0) k)
    refine congrArg (V c main_v51) (funext fun a => Fin.ext ?_)
    match a with
    | ⟨0, _⟩ =>
      show win3_0.index t (0 : Fin 2) * 5000 + 1 * (y 0).val = win3_3.index t (0 : Fin 2) * 5000 + 1 * (y 0).val
      omega
    | ⟨1, _⟩ =>
      show win3_0.index t (1 : Fin 2) * 128 + 1 * k.val = k.val
      omega
  have hw : ∀ k : Fin 128, iblk3 V c 1 t (ix2 k (y 1)) = V c main_arg5 (ix2 k ((((cfg3.win 3).blk t).view.emb y) 1)) := fun k => by
    show V c main_arg5 (((cfg3.win 1).blk t).view.emb (ix2 k (y 1))) = V c main_arg5 (ix2 k ((((cfg3.win 3).blk t).view.emb y) 1))
    refine congrArg (V c main_arg5) (funext fun a => Fin.ext ?_)
    match a with
    | ⟨0, _⟩ =>
      show win3_1.index t (0 : Fin 2) * 128 + 1 * k.val = k.val
      omega
    | ⟨1, _⟩ =>
      show win3_1.index t (1 : Fin 2) * 64 + 1 * (y 1).val = win3_3.index t (1 : Fin 2) * 64 + 1 * (y 1).val
      omega
  have hb : iblk3 V c 2 t (ix2 ⟨0, by decide⟩ (y 1)) = (0 : EReal) := by
    show V c main_v56 (((cfg3.win 2).blk t).view.emb (ix2 ⟨0, by decide⟩ (y 1))) = (0 : EReal)
    exact hz _
  rw [hb, add_zero]
  refine Finset.sum_congr rfl fun k _ => ?_
  rw [hx k, hw k]

/-- An index of the result is in point t's block iff each coordinate is in the block's range on its axis. -/
theorem mem_blk (t : Fin cfg3.N) (i : S50000x64.Idx) :
    i ∈ ((cfg3.win 3).blk t).view.set ↔ ∀ a : Fin 2, win3_3.index t a * S5000x64.size a ≤ (i a).val
      ∧ (i a).val < win3_3.index t a * S5000x64.size a + S5000x64.size a := by
  show i ∈ ((View.whole main_v57).slice (win3_3.rect t)).set ↔ _
  rw [View.set_slice_whole, Rect.mem_set_unit]
  exact Iff.rfl

/-- Row r of the result is in the block of point r / 5000: the ten blocks cover the array. -/
theorem cover (i : S50000x64.Idx) : ∃ t : Fin cfg3.N, (cfg3.win 3).flush t = true ∧ i ∈ ((cfg3.win 3).blk t).view.set := by
  have hi0 : (i 0).val < 50000 := (i 0).isLt
  have hi1 : (i 1).val < 64 := (i 1).isLt
  have hN : (i 0).val / 5000 < cfg3.N := by rw [show cfg3.N = 10 from N_3]; omega
  refine ⟨⟨(i 0).val / 5000, hN⟩, flush3_3 _, ?_⟩
  rw [mem_blk]
  obtain ⟨-, -, -, -, -, -, e30, e31⟩ := idx_facts ⟨(i 0).val / 5000, hN⟩
  intro a
  match a with
  | ⟨0, _⟩ =>
    show win3_3.index ⟨(i 0).val / 5000, hN⟩ (0 : Fin 2) * 5000 ≤ (i 0).val
      ∧ (i 0).val < win3_3.index ⟨(i 0).val / 5000, hN⟩ (0 : Fin 2) * 5000 + 5000
    rw [e30]; show (i 0).val / 5000 * 5000 ≤ (i 0).val ∧ (i 0).val < (i 0).val / 5000 * 5000 + 5000; omega
  | ⟨1, _⟩ =>
    show win3_3.index ⟨(i 0).val / 5000, hN⟩ (1 : Fin 2) * 64 ≤ (i 1).val
      ∧ (i 1).val < win3_3.index ⟨(i 0).val / 5000, hN⟩ (1 : Fin 2) * 64 + 64
    rw [e31]; omega

/-- The array after the region: the whole-array product of the arrays as the region finds them. -/
theorem final3 (c : Dev nD) (hz : ∀ j, V c main_v56 j = (0 : EReal)) :
    (dat3 V c).arrAt 3 cfg3.N = Cert.Gcn.project64 (F := Ideal) (V c main_v51) (V c main_arg5) :=
  (dat3 V c).arrAt_eq_of_cover 3 _ (fun t _ => flushed_eq V c hz t) cover

end Region

end Cert.KernelIdeal.Dense3

end
-- ==== Proof.Bias4.lean ====
/-
  The fifth pallas_call: a + b2, ten row blocks of 5000 rows, width 64.

  Point t of the grid reads rows 5000 t … 5000 t + 4999 of the aggregated array and the whole bias row, and writes
  the same rows of the result. The body is pointwise: entry (r, j) of the block is the block's entry plus the bias at
  column j. The block's entry is the array's entry at the place the output block sits, so the ten blocks written back
  are the ten row ranges of ONE whole-array function, a + row (Spec.lean's bias64). The blocks cover the array, so the
  array ends at it.
-/
import proofs.«119093_j65197603553735_1_alg».proof.Proof.Spec
import proofs.«119093_j65197603553735_1_alg».proof.Proof.Gen.KernelIdeal.Frame
import Idealize.ShloMosaic.Lib.Pipeline.Value
import Idealize.ShloMosaic.PureOps.Ideal.Laws
import Idealize.ShloMosaic.Lib.ValueIdx
import Idealize.ShloMosaic.Lib.StableHlo.Run
import proofs.«119093_j65197603553735_1_alg».proof.Proof.LibPlainDot

set_option maxRecDepth 16384

noncomputable section

open Idealize.ShloMosaic Idealize.ShloMosaic.TcCoe Idealize.SL.Sem
open Idealize.ShloMosaic.Pipeline (Dat Cfg Window)
open Cert.KernelIdeal Cert.KernelIdeal.Gen
open Idealize.ShloMosaic.ValueIdx

namespace Cert.KernelIdeal.Bias4

/-- The block offsets of a store or load through a whole staging buffer are zero. -/
theorem zero_offsets : (![0, 0] : Fin 2 → Nat) = fun _ => 0 := funext fun a => by fin_cases a <;> rfl

/-- The whole-array function at an index: the entry plus the bias at its column. -/
theorem bias64_apply (A : FVec Ideal S50000x64 .f32) (B : FVec Ideal S1x64 .f32) (i : S50000x64.Idx) :
    Cert.Gcn.bias64 (F := Ideal) A B i = A i + B (ix2 ⟨0, by decide⟩ (i 1)) := by
  unfold Cert.Gcn.bias64
  rw [addf_apply]
  rw [broadcastInDim_apply ![0, 1] _ B i (ix2 ⟨0, by decide⟩ (i 1)) (by intro a; match a with | ⟨0, _⟩ => rfl | ⟨1, _⟩ => rfl)]

/-- The block's payload at an index: the block's entry plus the bias at its column. -/
theorem pay_apply (x0 : Vec Ideal S5000x64 .f32) (x1 : Vec Ideal S1x64 .f32) (y : S5000x64.Idx) :
    k4_pay1 (F := Ideal) x0 x1 y = x0 y + x1 (ix2 ⟨0, by decide⟩ (y 1)) := by
  unfold k4_pay1
  rw [addf_apply]
  rw [broadcastTo_apply _ broadcasts_S1x64_S5000x64 y (ix2 ⟨0, by decide⟩ (y 1)) (by intro a; match a with | ⟨0, _⟩ => rfl | ⟨1, _⟩ => rfl)]
  rw [shapeCast_self, shapeCast_self]

/-- The index maps over the grid: the input block and the output block move together down the rows, block t at point t;
    the bias row's block stays at the origin. -/
theorem idx_facts : ∀ t : Fin cfg4.N, win4_0.index t (0 : Fin 2) = win4_2.index t (0 : Fin 2)
    ∧ win4_0.index t (1 : Fin 2) = win4_2.index t (1 : Fin 2)
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

variable (V : (c : Dev nD) → (b : Ref sig .tc) → Buf (Elt Ideal) ((c : Thread nD τ).loc b))

/-- What point t writes back is block t of the whole-array function of the arrays the region found: the payload at a
    block index reads the input block's entry and the bias row's column, and the input block's entry is the array's at
    the same place the output block sits. -/
theorem flushed_eq (c : Dev nD) (t : Fin cfg4.N) :
    (dat4 V c).flushed 2 t = ((cfg4.win 2).blk t).view.read (Elt Ideal) (Cert.Gcn.bias64 (F := Ideal) (V c main_v95) (V c main_v96)) := by
  show (cfg4.win 2).cut (grid4.coords t) ((dat4 V c).after 2 t) = _
  rw [after4_2]
  unfold out4_2
  rw [View.canon_unit_zero zero_offsets]
  simp only [View.ld_unit_zero (S := S5000x64) zero_offsets, View.ld_unit_zero (S := S1x64) zero_offsets]
  obtain ⟨e0, e1, e2, e3, e4, e5⟩ := idx_facts t
  funext y
  refine (pay_apply (iblk4 V c 0 t) (iblk4 V c 1 t) y).trans ?_
  refine Eq.trans ?_ (bias64_apply (V c main_v95) (V c main_v96) (((cfg4.win 2).blk t).view.emb y)).symm
  have h0 : ((cfg4.win 0).blk t).view.emb y = ((cfg4.win 2).blk t).view.emb y := by
    funext a; apply Fin.ext
    match a with
    | ⟨0, _⟩ => show win4_0.index t (0 : Fin 2) * 5000 + 1 * (y 0).val = win4_2.index t (0 : Fin 2) * 5000 + 1 * (y 0).val; omega
    | ⟨1, _⟩ => show win4_0.index t (1 : Fin 2) * 64 + 1 * (y 1).val = win4_2.index t (1 : Fin 2) * 64 + 1 * (y 1).val; omega
  have h1 : ((cfg4.win 1).blk t).view.emb (ix2 ⟨0, by decide⟩ (y 1) : S1x64.Idx) = (ix2 ⟨0, by decide⟩ (((cfg4.win 2).blk t).view.emb y 1) : S1x64.Idx) := by
    funext a; apply Fin.ext
    match a with
    | ⟨0, _⟩ => show win4_1.index t (0 : Fin 2) * 1 + 1 * 0 = 0; omega
    | ⟨1, _⟩ => show win4_1.index t (1 : Fin 2) * 64 + 1 * (y 1).val = win4_2.index t (1 : Fin 2) * 64 + 1 * (y 1).val; omega
  have p : iblk4 V c 0 t y = V c main_v95 (((cfg4.win 2).blk t).view.emb y) := congrArg (V c main_v95) h0
  have q : iblk4 V c 1 t (ix2 ⟨0, by decide⟩ (y 1) : S1x64.Idx) = V c main_v96 (ix2 ⟨0, by decide⟩ (((cfg4.win 2).blk t).view.emb y 1) : S1x64.Idx) := congrArg (V c main_v96) h1
  exact congrArg₂ (fun (u v : EReal) => u + v) p q

/-- An index of the array is in point t's block iff each coordinate is in the block's range on its axis. -/
theorem mem_blk (t : Fin cfg4.N) (i : S50000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v97).slice (win4_2.rect t)).set ↔ _
  rw [View.set_slice_whole, Rect.mem_set_unit]
  exact Iff.rfl

/-- The ten row blocks cover the array: row r lies in block r / 5000, and every block spans all 64 columns. -/
theorem cover (i : S50000x64.Idx) : ∃ t : Fin cfg4.N, (cfg4.win 2).flush t = true ∧ i ∈ ((cfg4.win 2).blk t).view.set := by
  have hi0 : (i 0).val < 50000 := (i 0).isLt
  have hi1 : (i 1).val < 64 := (i 1).isLt
  have ht : (i 0).val / 5000 < cfg4.N := by
    show (i 0).val / 5000 < grid4.N
    rw [N_4]; omega
  obtain ⟨e0, e1, e2, e3, e4, e5⟩ := idx_facts ⟨(i 0).val / 5000, ht⟩
  refine ⟨⟨(i 0).val / 5000, ht⟩, flush4_2 _, ?_⟩
  rw [mem_blk]
  intro a
  match a with
  | ⟨0, _⟩ =>
    show win4_2.index ⟨(i 0).val / 5000, ht⟩ (0 : Fin 2) * 5000 ≤ (i 0).val ∧ (i 0).val < win4_2.index ⟨(i 0).val / 5000, ht⟩ (0 : Fin 2) * 5000 + 5000
    have e4' : win4_2.index ⟨(i 0).val / 5000, ht⟩ (0 : Fin 2) = (i 0).val / 5000 := e4
    omega
  | ⟨1, _⟩ =>
    show win4_2.index ⟨(i 0).val / 5000, ht⟩ (1 : Fin 2) * 64 ≤ (i 1).val ∧ (i 1).val < win4_2.index ⟨(i 0).val / 5000, ht⟩ (1 : Fin 2) * 64 + 64
    omega

/-- The output array after the region's run: a + row of the arrays the region found, whole. -/
theorem final4 (c : Dev nD) :
    (dat4 V c).arrAt 2 cfg4.N = Cert.Gcn.bias64 (F := Ideal) (V c main_v95) (V c main_v96) :=
  (dat4 V c).arrAt_eq_of_cover 2 _ (fun t _ => flushed_eq V c t) (fun i => cover i)

end Cert.KernelIdeal.Bias4

end
-- ==== Proof.Walk1.lean ====
/-
  What the first three pallas_calls find in their input arrays: the host stretches of the first layer, read back.

  Before the first region the host slices the two rows of the edge list, flattens them and recasts the first bias as a
  row. Before the second it appends the self loops 0 … 49999 to both id vectors and makes a row of zeros. Before the
  third it computes the in-degrees (ones scattered to the destinations), their inverse square roots where positive, the
  scale of every edge, gathers the projected rows at the sources, scales them and sums them at the destinations, and
  recasts the second bias as a row. Every buffer is read where the last operation that wrote it left it; a region
  changes only its own arrays, a host stretch only its operations' results.
-/
import proofs.«119093_j65197603553735_1_alg».proof.Proof.Spec
import proofs.«119093_j65197603553735_1_alg».proof.Proof.Gen.KernelIdeal.Frame
import Idealize.ShloMosaic.Lib.Pipeline.Value
import Idealize.ShloMosaic.PureOps.Ideal.Laws
import Idealize.ShloMosaic.Lib.ValueIdx
import Idealize.ShloMosaic.Lib.StableHlo.Run

set_option maxRecDepth 16384

noncomputable section

open Idealize.ShloMosaic Idealize.ShloMosaic.TcCoe Idealize.SL.Sem
open Idealize.ShloMosaic.Pipeline (Dat Cfg Window)
open Cert.KernelIdeal Cert.KernelIdeal.Gen
open Idealize.ShloMosaic.ValueIdx

namespace Cert.KernelIdeal.Walk1

/-- A buffer that no operation of a host stretch writes holds after the stretch what it held before. -/
local macro "host_keeps" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

section Generic
variable {F : FTy → Type} [FloatOps F]

/-! ## The host stretches before the third region over any contents -/

section Stretches
variable (X : Valuation τ sig (Elt F))

/-- The two stretches before the last, at the scale vector's source: the inverse square root of the in-degree where it
    is positive, 0 elsewhere, from the destination ids they find. -/
theorem v21_of (d : (⟨Cert.ReferenceIdeal.S850000, .i32⟩ : BufTy).Contents (Elt F))
    (h8 : X (Proc.devRef .tc main_v8) = d) :
    StableHlo.after hostOps2_1 (StableHlo.after hostOps2 X) (Proc.devRef .tc main_v21) = Cert.Gcn.invSqrtDeg d := by
  after_results_simp
  simp only [StableHlo.TRef.ofBuf, StableHlo.TRef.toBuf, cast_eq]
  rw [h8]
  rfl

/-- The last stretch, at the aggregation's result: the rows gathered at the sources, scaled per edge, summed at the
    destinations, from the projected rows, the two id vectors and the scale vector's source it finds. -/
theorem v49_of (xw : (⟨Cert.ReferenceIdeal.S50000x128, .f32⟩ : BufTy).Contents (Elt F))
    (s d : (⟨Cert.ReferenceIdeal.S850000, .i32⟩ : BufTy).Contents (Elt F))
    (h11 : X (Proc.devRef .tc main_v11) = xw) (h7 : X (Proc.devRef .tc main_v7) = s) (h8 : X (Proc.devRef .tc main_v8) = d)
    (h21 : X (Proc.devRef .tc main_v21) = Cert.Gcn.invSqrtDeg d) :
    StableHlo.after hostOps2_2 X (Proc.devRef .tc main_v49) = Cert.Gcn.aggregate128 xw s d := by
  after_results_simp
  rw [h11, h7, h8, h21]
  rfl

end Stretches

/-! ## The walk back through the boundaries -/

variable (m : (ℓ : Loc nD τ sig) → Buf (Elt F) ℓ) (ρ : Dev nD → PrngReg) (c : Dev nD)

/-- Row 0 of the edge list, flattened, where the first host stretch leaves it. -/
theorem W1_v1 : W1 m ρ c (Proc.devRef .tc main_v1)
    = shapeCast _ (extractStridedSlice S1x800000 ![0, 0] (m ((c : Thread nD τ).loc main_arg7)) slices_S2x800000_S1x800000_0_0) shapeCasts_S1x800000_S800000 := by
  show StableHlo.after hostOps0 (W0 m ρ c) (Proc.devRef .tc main_v1) = _
  after_results
  rfl

/-- Row 1 of the edge list, flattened. -/
theorem W1_v3 : W1 m ρ c (Proc.devRef .tc main_v3)
    = shapeCast _ (extractStridedSlice S1x800000 ![1, 0] (m ((c : Thread nD τ).loc main_arg7)) slices_S2x800000_S1x800000_1_0) shapeCasts_S1x800000_S800000 := by
  show StableHlo.after hostOps0 (W0 m ρ c) (Proc.devRef .tc main_v3) = _
  after_results
  rfl

/-- The source ids with the self loops appended, as the second region leaves them. -/
theorem W4_v7 : W4 m ρ c (Proc.devRef .tc main_v7) = Cert.Gcn.withLoops0 (m ((c : Thread nD τ).loc main_arg7)) := by
  rw [W4_of_ne m ρ c main_v7 (by decide)]
  show StableHlo.after hostOps1 (W2 m ρ c) (Proc.devRef .tc main_v7) = _
  after_results
  rw [W2_of_ne m ρ c main_v1 (by decide), W1_v1]
  rfl

/-- The destination ids with the self loops appended. -/
theorem W4_v8 : W4 m ρ c (Proc.devRef .tc main_v8) = Cert.Gcn.withLoops1 (m ((c : Thread nD τ).loc main_arg7)) := by
  rw [W4_of_ne m ρ c main_v8 (by decide)]
  show StableHlo.after hostOps1 (W2 m ρ c) (Proc.devRef .tc main_v8) = _
  after_results
  rw [W2_of_ne m ρ c main_v3 (by decide), W1_v3]
  rfl

/-- The first layer's convolution bias is an argument nothing writes: at the second region's exit it is as launched. -/
theorem W4_arg4 : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by host_keeps hostOps1
    _ = W1 m ρ c (Proc.devRef .tc main_arg4) := W2_of_ne m ρ c main_arg4 (by decide)
    _ = W0 m ρ c (Proc.devRef .tc main_arg4) := by host_keeps hostOps0
    _ = m ((c : Thread nD τ).loc main_arg4) := rfl

/-- The first layer's convolution weights likewise, at the second region's entry. -/
theorem W3_arg3 : W3 m ρ c (Proc.devRef .tc main_arg3) = m ((c : Thread nD τ).loc main_arg3) :=
  calc W3 m ρ c (Proc.devRef .tc main_arg3)
    _ = W2 m ρ c (Proc.devRef .tc main_arg3) := by host_keeps hostOps1
    _ = W1 m ρ c (Proc.devRef .tc main_arg3) := W2_of_ne m ρ c main_arg3 (by decide)
    _ = W0 m ρ c (Proc.devRef .tc main_arg3) := by host_keeps hostOps0
    _ = m ((c : Thread nD τ).loc main_arg3) := rfl

/-- A vector of 128 entries recast as one row is the vector laid along axis 1 of a one-row matrix. -/
theorem row_of_cast (b : (⟨S128, .f32⟩ : BufTy).Contents (Elt F)) :
    shapeCast S1x128 b shapeCasts_S128_S1x128 = Cert.Gcn.row128 b := by
  funext i
  unfold Cert.Gcn.row128
  rw [shapeCast_apply b shapeCasts_S128_S1x128 i (ix1 (i 1 : Fin 128)) (by
        rw [Shape.rowMajor_val_two, Shape.rowMajor_val_one]
        have h0 : (i 0).val < 1 := (i 0).isLt
        show (i 1).val = (i 0).val * 128 + (i 1).val
        omega),
    broadcastInDim_apply ![1] _ b i (ix1 (i 1 : Fin 128)) (by
        intro a
        match a with
        | ⟨0, _⟩ => rfl)]

/-- The third region's bias row: the last operation of the last stretch recasts the bias argument as a row. -/
theorem W7_v50 : W7 m ρ c (Proc.devRef .tc main_v50) = Cert.Gcn.row128 (m ((c : Thread nD τ).loc main_arg4)) := by
  show StableHlo.after hostOps2_2 (W6 m ρ c) (Proc.devRef .tc main_v50) = _
  after_results
  rw [W4_arg4]
  exact row_of_cast _

/-- The third region's aggregated rows: the three stretches after the second region read its result, the two id vectors
    and (through the degrees) the destination ids again. -/
theorem W7_v49 : W7 m ρ c (Proc.devRef .tc main_v49)
    = Cert.Gcn.aggregate128 (W4 m ρ c (Proc.devRef .tc main_v11))
        (Cert.Gcn.withLoops0 (m ((c : Thread nD τ).loc main_arg7))) (Cert.Gcn.withLoops1 (m ((c : Thread nD τ).loc main_arg7))) := by
  show StableHlo.after hostOps2_2 (W6 m ρ c) (Proc.devRef .tc main_v49) = _
  refine v49_of (W6 m ρ c) _ _ _ ?_ ?_ ?_ ?_
  · calc W6 m ρ c (Proc.devRef .tc main_v11)
      _ = W5 m ρ c (Proc.devRef .tc main_v11) := by host_keeps hostOps2_1
      _ = W4 m ρ c (Proc.devRef .tc main_v11) := by host_keeps hostOps2
  · calc W6 m ρ c (Proc.devRef .tc main_v7)
      _ = W5 m ρ c (Proc.devRef .tc main_v7) := by host_keeps hostOps2_1
      _ = W4 m ρ c (Proc.devRef .tc main_v7) := by host_keeps hostOps2
      _ = _ := W4_v7 m ρ c
  · calc W6 m ρ c (Proc.devRef .tc main_v8)
      _ = W5 m ρ c (Proc.devRef .tc main_v8) := by host_keeps hostOps2_1
      _ = W4 m ρ c (Proc.devRef .tc main_v8) := by host_keeps hostOps2
      _ = _ := W4_v8 m ρ c
  · exact v21_of (W4 m ρ c) _ (W4_v8 m ρ c)

/-- The first region's bias row: the first stretch recasts the bias argument as a row. -/
theorem W1_v4 : W1 m ρ c (Proc.devRef .tc main_v4) = Cert.Gcn.row128 (m ((c : Thread nD τ).loc main_arg2)) := by
  show StableHlo.after hostOps0 (W0 m ρ c) (Proc.devRef .tc main_v4) = _
  after_results
  exact row_of_cast _

end Generic

/-! ## What the first three regions find in their input arrays -/

section AtIdeal
variable (m : (ℓ : Loc nD τ sig) → Buf (Elt Ideal) ℓ) (ρ : Dev nD → PrngReg) (c : Dev nD)

/-- The first region reads x as launched: the first stretch does not write it. -/
theorem in0_x : V1 m ρ c main_arg0 = m ((c : Thread nD τ).loc main_arg0) :=
  calc W1 m ρ c (Proc.devRef .tc main_arg0)
    _ = W0 m ρ c (Proc.devRef .tc main_arg0) := by host_keeps hostOps0
    _ = m ((c : Thread nD τ).loc main_arg0) := rfl

/-- And W as launched. -/
theorem in0_w : V1 m ρ c main_arg1 = m ((c : Thread nD τ).loc main_arg1) :=
  calc W1 m ρ c (Proc.devRef .tc main_arg1)
    _ = W0 m ρ c (Proc.devRef .tc main_arg1) := by host_keeps hostOps0
    _ = m ((c : Thread nD τ).loc main_arg1) := rfl

/-- Its bias row is the bias argument as a row. -/
theorem in0_b : V1 m ρ c main_v4 = Cert.Gcn.row128 (F := Ideal) (m ((c : Thread nD τ).loc main_arg2)) := W1_v4 m ρ c

/-- The second region reads the hidden layer where the first left it: the stretch between them does not write it. -/
theorem in1_h : V3 m ρ c main_v5 = W2 m ρ c (Proc.devRef .tc main_v5) := by
  show StableHlo.after hostOps1 (W2 m ρ c) (Proc.devRef .tc main_v5) = _
  host_keeps hostOps1

/-- Its weight matrix is the argument as launched. -/
theorem in1_w : V3 m ρ c main_arg3 = m ((c : Thread nD τ).loc main_arg3) := W3_arg3 m ρ c

/-- The row added to the product in the second region is a broadcast of the constant 0, recast as a row. -/
theorem in1_z : ∀ j, V3 m ρ c main_v10 j = (0 : EReal) := by
  intro j
  show StableHlo.after hostOps1 (W2 m ρ c) (Proc.devRef .tc main_v10) j = _
  after_results
  exact Ideal.ofBits_zero_f32

/-- The third region's first input is the aggregation of the second region's result over the edge list with self loops. -/
theorem in2_a : V7 m ρ c main_v49 = Cert.Gcn.aggregate128 (F := Ideal) (W4 m ρ c (Proc.devRef .tc main_v11))
    (Cert.Gcn.withLoops0 (m ((c : Thread nD τ).loc main_arg7))) (Cert.Gcn.withLoops1 (m ((c : Thread nD τ).loc main_arg7))) :=
  W7_v49 m ρ c

/-- Its second input is the bias argument as a row. -/
theorem in2_b : V7 m ρ c main_v50 = Cert.Gcn.row128 (F := Ideal) (m ((c : Thread nD τ).loc main_arg4)) :=
  W7_v50 m ρ c

end AtIdeal

end Cert.KernelIdeal.Walk1

end
-- ==== Proof.Walk2.lean ====
import proofs.«119093_j65197603553735_1_alg».proof.Proof.Spec
import proofs.«119093_j65197603553735_1_alg».proof.Proof.Gen.KernelIdeal.Frame
import Idealize.ShloMosaic.Lib.Pipeline.Value
import Idealize.ShloMosaic.PureOps.Ideal.Laws
import Idealize.ShloMosaic.Lib.ValueIdx
import Idealize.ShloMosaic.Lib.StableHlo.Run
import proofs.«119093_j65197603553735_1_alg».proof.Proof.LibPlainDot

set_option maxRecDepth 16384

noncomputable section

open Idealize.ShloMosaic Idealize.ShloMosaic.TcCoe Idealize.SL.Sem
open Idealize.ShloMosaic.Pipeline (Dat Cfg Window)
open Cert.KernelIdeal Cert.KernelIdeal.Gen
open Idealize.ShloMosaic.ValueIdx

namespace Cert.KernelIdeal.Walk2

/-- A buffer that no operation of a host stretch writes holds after the stretch what it held before. -/
local macro "host_keeps" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

section Generic
variable {F : FTy → Type} [FloatOps F]

/-! ## The host stretches of layer 2 over any contents -/

section Stretches
variable (X : Valuation τ sig (Elt F))

/-- The two stretches before the last, at the scale vector: the inverse square root of the in-degree where it is
    positive, 0 elsewhere, from the destination ids they find. -/
theorem v67_of (d : (⟨Cert.ReferenceIdeal.S850000, .i32⟩ : BufTy).Contents (Elt F))
    (h54 : X (Proc.devRef .tc main_v54) = d) :
    StableHlo.after hostOps4_1 (StableHlo.after hostOps4 X) (Proc.devRef .tc main_v67) = Cert.Gcn.invSqrtDeg d := by
  after_results_simp
  simp only [StableHlo.TRef.ofBuf, StableHlo.TRef.toBuf, cast_eq]
  rw [h54]
  rfl

/-- The last stretch, at the aggregation's result: the rows gathered at the sources, scaled per edge, summed at the
    destinations, from the projected rows, the two id vectors and the scale vector it finds. -/
theorem v95_of (xw : (⟨Cert.ReferenceIdeal.S50000x64, .f32⟩ : BufTy).Contents (Elt F))
    (s d : (⟨Cert.ReferenceIdeal.S850000, .i32⟩ : BufTy).Contents (Elt F))
    (h57 : X (Proc.devRef .tc main_v57) = xw) (h53 : X (Proc.devRef .tc main_v53) = s) (h54 : X (Proc.devRef .tc main_v54) = d)
    (h67 : X (Proc.devRef .tc main_v67) = Cert.Gcn.invSqrtDeg d) :
    StableHlo.after hostOps4_2 X (Proc.devRef .tc main_v95) = Cert.Gcn.aggregate64 xw s d := by
  after_results_simp
  rw [h57, h53, h54, h67]
  rfl

end Stretches

/-! ## The walk back through the boundaries -/

variable (m : (ℓ : Loc nD τ sig) → Buf (Elt F) ℓ) (ρ : Dev nD → PrngReg) (c : Dev nD)

/-- The second-layer weight matrix is an argument nothing writes: at region 3's entry it is as launched. -/
theorem W9_arg5 : W9 m ρ c (Proc.devRef .tc main_arg5) = m ((c : Thread nD τ).loc main_arg5) :=
  calc W9 m ρ c (Proc.devRef .tc main_arg5)
    _ = W8 m ρ c (Proc.devRef .tc main_arg5) := by host_keeps hostOps3
    _ = W7 m ρ c (Proc.devRef .tc main_arg5) := W8_of_ne m ρ c main_arg5 (by decide)
    _ = W6 m ρ c (Proc.devRef .tc main_arg5) := by host_keeps hostOps2_2
    _ = W5 m ρ c (Proc.devRef .tc main_arg5) := by host_keeps hostOps2_1
    _ = W4 m ρ c (Proc.devRef .tc main_arg5) := by host_keeps hostOps2
    _ = W3 m ρ c (Proc.devRef .tc main_arg5) := W4_of_ne m ρ c main_arg5 (by decide)
    _ = W2 m ρ c (Proc.devRef .tc main_arg5) := by host_keeps hostOps1
    _ = W1 m ρ c (Proc.devRef .tc main_arg5) := W2_of_ne m ρ c main_arg5 (by decide)
    _ = W0 m ρ c (Proc.devRef .tc main_arg5) := by host_keeps hostOps0
    _ = m ((c : Thread nD τ).loc main_arg5) := rfl

/-- Row 0 of the edge list, flattened, where the first host stretch leaves it. -/
theorem W1_v1 : W1 m ρ c (Proc.devRef .tc main_v1)
    = shapeCast _ (extractStridedSlice S1x800000 ![0, 0] (m ((c : Thread nD τ).loc main_arg7)) slices_S2x800000_S1x800000_0_0) shapeCasts_S1x800000_S800000 := by
  show StableHlo.after hostOps0 (W0 m ρ c) (Proc.devRef .tc main_v1) = _
  after_results
  rfl

/-- Row 1 of the edge list, flattened. -/
theorem W1_v3 : W1 m ρ c (Proc.devRef .tc main_v3)
    = shapeCast _ (extractStridedSlice S1x800000 ![1, 0] (m ((c : Thread nD τ).loc main_arg7)) slices_S2x800000_S1x800000_1_0) shapeCasts_S1x800000_S800000 := by
  show StableHlo.after hostOps0 (W0 m ρ c) (Proc.devRef .tc main_v3) = _
  after_results
  rfl

/-- Nothing between the first stretch and region 2's exit writes the flattened row 0. -/
theorem W8_v1 : W8 m ρ c (Proc.devRef .tc main_v1) = W1 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := by host_keeps hostOps2_2
    _ = W5 m ρ c (Proc.devRef .tc main_v1) := by host_keeps hostOps2_1
    _ = W4 m ρ c (Proc.devRef .tc main_v1) := by host_keeps hostOps2
    _ = W3 m ρ c (Proc.devRef .tc main_v1) := W4_of_ne m ρ c main_v1 (by decide)
    _ = W2 m ρ c (Proc.devRef .tc main_v1) := by host_keeps hostOps1
    _ = W1 m ρ c (Proc.devRef .tc main_v1) := W2_of_ne m ρ c main_v1 (by decide)

/-- Nor the flattened row 1. -/
theorem W8_v3 : W8 m ρ c (Proc.devRef .tc main_v3) = W1 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := by host_keeps hostOps2_2
    _ = W5 m ρ c (Proc.devRef .tc main_v3) := by host_keeps hostOps2_1
    _ = W4 m ρ c (Proc.devRef .tc main_v3) := by host_keeps hostOps2
    _ = W3 m ρ c (Proc.devRef .tc main_v3) := W4_of_ne m ρ c main_v3 (by decide)
    _ = W2 m ρ c (Proc.devRef .tc main_v3) := by host_keeps hostOps1
    _ = W1 m ρ c (Proc.devRef .tc main_v3) := W2_of_ne m ρ c main_v3 (by decide)

/-- The source ids with the self loops appended, as region 3 leaves them. -/
theorem W10_v53 : W10 m ρ c (Proc.devRef .tc main_v53) = Cert.Gcn.withLoops0 (m ((c : Thread nD τ).loc main_arg7)) := by
  rw [W10_of_ne m ρ c main_v53 (by decide)]
  show StableHlo.after hostOps3 (W8 m ρ c) (Proc.devRef .tc main_v53) = _
  after_results
  rw [W8_v1, W1_v1]
  rfl

/-- The destination ids with the self loops appended. -/
theorem W10_v54 : W10 m ρ c (Proc.devRef .tc main_v54) = Cert.Gcn.withLoops1 (m ((c : Thread nD τ).loc main_arg7)) := by
  rw [W10_of_ne m ρ c main_v54 (by decide)]
  show StableHlo.after hostOps3 (W8 m ρ c) (Proc.devRef .tc main_v54) = _
  after_results
  rw [W8_v3, W1_v3]
  rfl

/-- The second-layer bias is an argument nothing writes: at region 3's exit it is as launched. -/
theorem W10_arg6 : W10 m ρ c (Proc.devRef .tc main_arg6) = m ((c : Thread nD τ).loc main_arg6) :=
  calc W10 m ρ c (Proc.devRef .tc main_arg6)
    _ = W9 m ρ c (Proc.devRef .tc main_arg6) := W10_of_ne m ρ c main_arg6 (by decide)
    _ = W8 m ρ c (Proc.devRef .tc main_arg6) := by host_keeps hostOps3
    _ = W7 m ρ c (Proc.devRef .tc main_arg6) := W8_of_ne m ρ c main_arg6 (by decide)
    _ = W6 m ρ c (Proc.devRef .tc main_arg6) := by host_keeps hostOps2_2
    _ = W5 m ρ c (Proc.devRef .tc main_arg6) := by host_keeps hostOps2_1
    _ = W4 m ρ c (Proc.devRef .tc main_arg6) := by host_keeps hostOps2
    _ = W3 m ρ c (Proc.devRef .tc main_arg6) := W4_of_ne m ρ c main_arg6 (by decide)
    _ = W2 m ρ c (Proc.devRef .tc main_arg6) := by host_keeps hostOps1
    _ = W1 m ρ c (Proc.devRef .tc main_arg6) := W2_of_ne m ρ c main_arg6 (by decide)
    _ = W0 m ρ c (Proc.devRef .tc main_arg6) := by host_keeps hostOps0
    _ = m ((c : Thread nD τ).loc main_arg6) := rfl

/-- A vector of 64 entries recast as one row is the vector laid along axis 1 of a one-row matrix. -/
theorem row_of_cast (b : (⟨S64, .f32⟩ : BufTy).Contents (Elt F)) :
    shapeCast S1x64 b shapeCasts_S64_S1x64 = Cert.Gcn.row64 b := by
  funext i
  unfold Cert.Gcn.row64
  rw [shapeCast_apply b shapeCasts_S64_S1x64 i (ix1 (i 1 : Fin 64)) (by
        rw [Shape.rowMajor_val_two, Shape.rowMajor_val_one]
        have h0 : (i 0).val < 1 := (i 0).isLt
        show (i 1).val = (i 0).val * 64 + (i 1).val
        omega),
    broadcastInDim_apply ![1] _ b i (ix1 (i 1 : Fin 64)) (by
        intro a
        match a with
        | ⟨0, _⟩ => rfl)]

/-- Region 4's bias row: the last operation of the last stretch recasts the bias argument as a row. -/
theorem W13_v96 : W13 m ρ c (Proc.devRef .tc main_v96) = Cert.Gcn.row64 (m ((c : Thread nD τ).loc main_arg6)) := by
  show StableHlo.after hostOps4_2 (W12 m ρ c) (Proc.devRef .tc main_v96) = _
  after_results
  rw [W10_arg6]
  exact row_of_cast _

/-- Region 4's aggregated rows: the three stretches after region 3 read its result, the two id vectors and (through
    the degrees) the destination ids again. -/
theorem W13_v95 : W13 m ρ c (Proc.devRef .tc main_v95)
    = Cert.Gcn.aggregate64 (W10 m ρ c (Proc.devRef .tc main_v57))
        (Cert.Gcn.withLoops0 (m ((c : Thread nD τ).loc main_arg7))) (Cert.Gcn.withLoops1 (m ((c : Thread nD τ).loc main_arg7))) := by
  show StableHlo.after hostOps4_2 (W12 m ρ c) (Proc.devRef .tc main_v95) = _
  refine v95_of (W12 m ρ c) _ _ _ ?_ ?_ ?_ ?_
  · calc W12 m ρ c (Proc.devRef .tc main_v57)
      _ = W11 m ρ c (Proc.devRef .tc main_v57) := by host_keeps hostOps4_1
      _ = W10 m ρ c (Proc.devRef .tc main_v57) := by host_keeps hostOps4
  · calc W12 m ρ c (Proc.devRef .tc main_v53)
      _ = W11 m ρ c (Proc.devRef .tc main_v53) := by host_keeps hostOps4_1
      _ = W10 m ρ c (Proc.devRef .tc main_v53) := by host_keeps hostOps4
      _ = _ := W10_v53 m ρ c
  · calc W12 m ρ c (Proc.devRef .tc main_v54)
      _ = W11 m ρ c (Proc.devRef .tc main_v54) := by host_keeps hostOps4_1
      _ = W10 m ρ c (Proc.devRef .tc main_v54) := by host_keeps hostOps4
      _ = _ := W10_v54 m ρ c
  · exact v67_of (W10 m ρ c) _ (W10_v54 m ρ c)

end Generic

/-! ## What regions 3 and 4 find in their input arrays -/

section AtIdeal
variable (m : (ℓ : Loc nD τ sig) → Buf (Elt Ideal) ℓ) (ρ : Dev nD → PrngReg) (c : Dev nD)

/-- Region 3 reads the hidden layer where region 2 left it: the host stretch between them does not write it. -/
theorem in3_h : V9 m ρ c main_v51 = W8 m ρ c (Proc.devRef .tc main_v51) := by
  show StableHlo.after hostOps3 (W8 m ρ c) (Proc.devRef .tc main_v51) = _
  host_keeps hostOps3

/-- Its weight matrix is the argument as launched. -/
theorem in3_w : V9 m ρ c main_arg5 = m ((c : Thread nD τ).loc main_arg5) := W9_arg5 m ρ c

/-- The row added to the product in region 3 is a broadcast of the constant 0, recast as a row. -/
theorem in3_z : ∀ j, V9 m ρ c main_v56 j = (0 : EReal) := by
  intro j
  show StableHlo.after hostOps3 (W8 m ρ c) (Proc.devRef .tc main_v56) j = _
  after_results
  exact Ideal.ofBits_zero_f32

/-- Region 4's first input is the aggregation of region 3's result over the edge list with self loops. -/
theorem in4_a : V13 m ρ c main_v95 = Cert.Gcn.aggregate64 (F := Ideal) (W10 m ρ c (Proc.devRef .tc main_v57))
    (Cert.Gcn.withLoops0 (m ((c : Thread nD τ).loc main_arg7))) (Cert.Gcn.withLoops1 (m ((c : Thread nD τ).loc main_arg7))) :=
  W13_v95 m ρ c

/-- Its second input is the bias argument as a row. -/
theorem in4_b : V13 m ρ c main_v96 = Cert.Gcn.row64 (F := Ideal) (m ((c : Thread nD τ).loc main_arg6)) :=
  W13_v96 m ρ c

end AtIdeal

end Cert.KernelIdeal.Walk2

end
-- ==== Proof.KernelValue.lean ====
/-
  The kernel program's result is the network of Spec.lean at the launch contents of its eight arguments.

  The last boundary's contents at the result buffer is the fifth region's array; that is the bias added to what the
  region found, which is the aggregation of the fourth region's array, and so on back to the arguments: each region's
  closed form (the array after it as a whole-array function of the arrays it finds) composed with what the host stretch
  before it left in those arrays.
-/
import proofs.«119093_j65197603553735_1_alg».proof.Proof.Spec
import proofs.«119093_j65197603553735_1_alg».proof.Proof.Gen.KernelIdeal.Frame
import proofs.«119093_j65197603553735_1_alg».proof.Proof.Dense0
import proofs.«119093_j65197603553735_1_alg».proof.Proof.Dense1
import proofs.«119093_j65197603553735_1_alg».proof.Proof.Bias2
import proofs.«119093_j65197603553735_1_alg».proof.Proof.Dense3
import proofs.«119093_j65197603553735_1_alg».proof.Proof.Bias4
import proofs.«119093_j65197603553735_1_alg».proof.Proof.Walk1
import proofs.«119093_j65197603553735_1_alg».proof.Proof.Walk2

set_option maxRecDepth 16384

noncomputable section

open Idealize.ShloMosaic Idealize.ShloMosaic.TcCoe Idealize.SL.Sem
open Idealize.ShloMosaic.Pipeline (Dat Cfg Window)
open Cert.KernelIdeal Cert.KernelIdeal.Gen

namespace Cert.KernelIdeal.KernelValue

open Cert.KernelIdeal.Dense0 Cert.KernelIdeal.Dense1 Cert.KernelIdeal.Bias2 Cert.KernelIdeal.Dense3 Cert.KernelIdeal.Bias4
open Cert.KernelIdeal.Walk1 Cert.KernelIdeal.Walk2

variable (m : (ℓ : Loc nD τ sig) → Buf (Elt Ideal) ℓ) (ρ : Dev nD → PrngReg) (c : Dev nD)

/-- The result buffer at the last boundary is the network of the arguments. -/
theorem kernel_value :
    W14 m ρ c (Proc.devRef .tc main_v97) = Cert.Gcn.network (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) := by
  have e4 : W14 m ρ c (Proc.devRef .tc main_v97) = Cert.Gcn.bias64 (F := Ideal) (V13 m ρ c main_v95) (V13 m ρ c main_v96) :=
    (W14_arr m ρ c 2).trans (final4 (V13 m ρ) c)
  have e3 : W10 m ρ c (Proc.devRef .tc main_v57) = Cert.Gcn.project64 (F := Ideal) (V9 m ρ c main_v51) (V9 m ρ c main_arg5) :=
    (W10_arr m ρ c 3).trans (final3 (V9 m ρ) c (in3_z m ρ c))
  have e2 : W8 m ρ c (Proc.devRef .tc main_v51) = Cert.Gcn.biasRelu128 (F := Ideal) (V7 m ρ c main_v49) (V7 m ρ c main_v50) :=
    (W8_arr m ρ c 2).trans (final2 (V7 m ρ) c)
  have e1 : W4 m ρ c (Proc.devRef .tc main_v11) = Cert.Gcn.project128 (F := Ideal) (V3 m ρ c main_v5) (V3 m ρ c main_arg3) :=
    (W4_arr m ρ c 3).trans (final1 (V3 m ρ) c (in1_z m ρ c))
  have e0 : W2 m ρ c (Proc.devRef .tc main_v5) = Cert.Gcn.denseRelu (F := Ideal) (V1 m ρ c main_arg0) (V1 m ρ c main_arg1) (V1 m ρ c main_v4) :=
    (W2_arr m ρ c 3).trans (final0 (V1 m ρ) c)
  rw [e4, in4_a, in4_b, e3, in3_h, in3_w, e2, in2_a, in2_b, e1, in1_h, in1_w, e0, in0_x, in0_w, in0_b]
  rfl

end Cert.KernelIdeal.KernelValue

end
-- ==== Proof.RefValue.lean ====
/-
  The reference's result is the network of Spec.lean: its run's composed term, opened, is letter for letter the
  composition of the stages (dense layer, projection, aggregation, bias and relu, projection, aggregation, bias) at
  the launch contents of its eight arguments.
-/
import proofs.«119093_j65197603553735_1_alg».proof.Proof.Spec
import proofs.«119093_j65197603553735_1_alg».proof.Proof.RefRunPatched

set_option maxRecDepth 16384

noncomputable section

namespace Cert.ReferenceIdeal.RefValue

open Cert.ReferenceIdeal Cert.ReferenceIdeal.Gen Idealize.ShloMosaic Idealize.ShloMosaic.TcCoe Idealize.SL.Sem

variable {F : FTy → Type} [FloatOps F]

/-- The composed term of the reference's run is the network at the arguments. -/
theorem res_eq_network (m : (ℓ : Loc nD τ sig) → Buf (Elt F) ℓ) (c : Dev nD) :
    Cert.ReferenceIdeal.RunP.res_main_v99 (F := F) m c
      = Cert.Gcn.network (F := F) (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7)) := by
  unfold Cert.ReferenceIdeal.RunP.res_main_v99 Cert.Gcn.network Cert.Gcn.bias64 Cert.Gcn.aggregate64 Cert.Gcn.project64
    Cert.Gcn.biasRelu128 Cert.Gcn.aggregate128 Cert.Gcn.project128 Cert.Gcn.denseRelu Cert.Gcn.row128 Cert.Gcn.row64
    Cert.Gcn.edgeScale Cert.Gcn.invSqrtDeg Cert.Gcn.degree Cert.Gcn.wrapIdx Cert.Gcn.withLoops0 Cert.Gcn.withLoops1
  rfl

end Cert.ReferenceIdeal.RefValue

end
-- ==== Proof.lean ====
/-
  The certificate's claims, assembled.

  Both programs compute one function of the eight arguments over the extended reals: a dense layer, two graph
  convolutions and their biases (Proof/Spec.lean). The kernel program computes the three matrix products and the three
  bias additions in five row-blocked kernels whose blocks are the row ranges of the whole-array operations
  (Proof/Dense0, Dense1, Dense3, Bias2, Bias4), with the same host operations between them as the reference applies
  (Proof/Walk1, Walk2); the reference's run is its operations composed (Proof/RefValue). A format change is the identity
  on the extended reals and a zero added changes nothing, so no finiteness of the inputs is used.
-/
import proofs.«119093_j65197603553735_1_alg».proof.Defs
import proofs.«119093_j65197603553735_1_alg».proof.Proof.Gen.Kernel
import proofs.«119093_j65197603553735_1_alg».proof.Proof.Gen.Kernel.Frame
import proofs.«119093_j65197603553735_1_alg».proof.Proof.Gen.KernelIdeal
import proofs.«119093_j65197603553735_1_alg».proof.Proof.Gen.KernelIdeal.Frame
import proofs.«119093_j65197603553735_1_alg».proof.Proof.Gen.ReferenceIdeal
import proofs.«119093_j65197603553735_1_alg».proof.Proof.Gen.Pre_finite_inputs
import proofs.«119093_j65197603553735_1_alg».proof.Proof.KernelRun
import proofs.«119093_j65197603553735_1_alg».proof.Proof.KernelValue
import proofs.«119093_j65197603553735_1_alg».proof.Proof.RefRunPatched
import proofs.«119093_j65197603553735_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments: the generated frame. -/
theorem frame_kernel : Cert.frame_Kernel := fun m ρ _ => Cert.Kernel.Gen.frame m ρ

/-- So does its reading at the ideal values. -/
theorem frame_kernelIdeal : Cert.frame_KernelIdeal := fun m ρ _ => Cert.KernelIdeal.Gen.frame m ρ

/-- The reference runs and leaves its arguments: its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- From memories that agree on the arguments both programs end with the network of the arguments in their result. -/
theorem algebraic : Cert.algebraic_KernelIdeal_ReferenceIdeal := by
  intro m ρ m' ρ' _ hagree
  refine ⟨fun c => Cert.Gcn.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KernelValue.kernel_value m ρ c), (h c).2⟩)
      (Cert.KernelIdeal.ResultRun.run_result (F := Ideal) m ρ)
  · refine (θ_run Cert.ReferenceIdeal.defs _ _).mono (fun r h c => ⟨(h c).1.trans ?_, (h c).2⟩)
      (Cert.ReferenceIdeal.RunP.run (F := Ideal) m' ρ')
    obtain ⟨h0, h1, h2, h3, h4, h5, h6, h7⟩ := hagree c
    rw [Cert.ReferenceIdeal.RefValue.res_eq_network, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
